-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S100x128 : Shape := ⟨2, ![100, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩
abbrev S1x1600000 : Shape := ⟨2, ![1, 1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100x128 : S_.BroadcastsInDim S100x128 (![] : Fin 0 → Fin S100x128.rank)
  reducesTo_S100x128_S_d0_1 : S100x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part5 {F : FTy → Type} [FloatOps F] (main_v79 : IVec S_ 1) (main_v85 : IVec S_ 1) : IVec S_ 1 :=
  let main_v86 : IVec S_ 1 := andi main_v79 main_v85
  main_v86

def fn_part4 {F : FTy → Type} [FloatOps F] (main_arg1 : IVec S2x1600000 32) (main_arg2 : IVec S1600000 32) (main_v63 : IVec S_ 1) (main_v67 : IVec S_ 1) : IVec S_ 1 :=
  let main_v68 : IVec S_ 1 := andi main_v63 main_v67
  let main_v69 : IVec S1x1600000 32 := (extractStridedSlice S1x1600000 ![0, 0] · slices_S2x1600000_S1x1600000_0_0) main_arg1
  let main_v70 : IVec S1600000 32 := shapeCast S1600000 main_v69 shapeCasts_S1x1600000_S1600000
  let main_c_26 : IVec S_ 32 := constantI S_ 32 0#32
  let main_v71 : IVec S1600000 32 := broadcastInDim S1600000 ![] bcast_S_S1600000 main_c_26
  let main_v72 : IVec S1600000 1 := cmpi .sge main_v70 main_v71
  let main_v73 : IVec S1x1600000 32 := (extractStridedSlice S1x1600000 ![0, 0] · slices_S2x1600000_S1x1600000_0_0) main_arg1
  let main_v74 : IVec S1600000 32 := shapeCast S1600000 main_v73 shapeCasts_S1x1600000_S1600000
  let main_c_27 : IVec S_ 32 := constantI S_ 32 100000#32
  let main_v75 : IVec S1600000 32 := broadcastInDim S1600000 ![] bcast_S_S1600000 main_c_27
  let main_v76 : IVec S1600000 1 := cmpi .slt main_v74 main_v75
  let main_v77 : IVec S1600000 1 := andi main_v72 main_v76
  let main_c_28 : IVec S_ 1 := constantI S_ 1 1#1
  let main_v78 : IVec S_ 1 := (fun x v => Host.reduce IntOp.andi x v reducesTo_S1600000_S_d0 h_S_) main_v77 main_c_28
  let main_v79 : IVec S_ 1 := andi main_v68 main_v78
  let main_c_29 : IVec S_ 32 := constantI S_ 32 0#32
  let main_v80 : IVec S1600000 32 := broadcastInDim S1600000 ![] bcast_S_S1600000 main_c_29
  let main_v81 : IVec S1600000 1 := cmpi .sge main_arg2 main_v80
  let main_c_30 : IVec S_ 32 := constantI S_ 32 100#32
  let main_v82 : IVec S1600000 32 := broadcastInDim S1600000 ![] bcast_S_S1600000 main_c_30
  let main_v83 : IVec S1600000 1 := cmpi .slt main_arg2 main_v82
  let main_v84 : IVec S1600000 1 := andi main_v81 main_v83
  let main_c_31 : IVec S_ 1 := constantI S_ 1 1#1
  let main_v85 : IVec S_ 1 := (fun x v => Host.reduce IntOp.andi x v reducesTo_S1600000_S_d0 h_S_) main_v84 main_c_31
  fn_part5 (F := F) main_v79 main_v85

def fn_part3 {F : FTy → Type} [FloatOps F] (main_arg1 : IVec S2x1600000 32) (main_arg2 : IVec S1600000 32) (main_arg13 : FVec F S128 .f32) (main_arg14 : FVec F S128x1 .f32) (main_arg15 : FVec F S1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x1 .f32 := Host.absf main_arg14
  let main_cst_22 : FVec F S_ .f32 := constant S_ .f32 0x7F800000#32
  let main_v60 : FVec F S128x1 .f32 := broadcastInDim S128x1 ![] bcast_S_S128x1 main_cst_22
  let main_v61 : IVec S128x1 1 := cmpf .olt main_v59 main_v60
  let main_c_23 : IVec S_ 1 := constantI S_ 1 1#1
  let main_v62 : IVec S_ 1 := (fun x v => Host.reduce IntOp.andi x v reducesTo_S128x1_S_d0_1 h_S_) main_v61 main_c_23
  let main_v63 : IVec S_ 1 := andi main_v58 main_v62
  let main_v64 : FVec F S1 .f32 := Host.absf main_arg15
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_arg1 main_arg2 main_v63 main_v67

def fn_part2 {F : FTy → Type} [FloatOps F] (main_arg1 : IVec S2x1600000 32) (main_arg2 : IVec S1600000 32) (main_arg9 : FVec F S128 .f32) (main_arg10 : FVec F S128x128 .f32) (main_arg11 : FVec F S128 .f32) (main_arg12 : FVec F S128x128 .f32) (main_arg13 : FVec F S128 .f32) (main_arg14 : FVec F S128x1 .f32) (main_arg15 : FVec F S1 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg1 main_arg2 main_arg13 main_arg14 main_arg15 main_v48 main_v49 main_v50

def fn_part1 {F : FTy → Type} [FloatOps F] (main_arg1 : IVec S2x1600000 32) (main_arg2 : IVec S1600000 32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x1 .f32) (main_arg15 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg1 main_arg2 main_arg9 main_arg10 main_arg11 main_arg12 main_arg13 main_arg14 main_arg15 main_v33

def fn {F : FTy → Type} [FloatOps F] (main_arg0 : FVec F S100000x128 .f32) (main_arg1 : IVec S2x1600000 32) (main_arg2 : IVec S1600000 32) (main_arg3 : FVec F S100x128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x1 .f32) (main_arg15 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100x128 .f32 := Host.absf main_arg3
  let main_cst_0 : FVec F S_ .f32 := constant S_ .f32 0x7F800000#32
  let main_v5 : FVec F S100x128 .f32 := broadcastInDim S100x128 ![] bcast_S_S100x128 main_cst_0
  let main_v6 : IVec S100x128 1 := cmpf .olt main_v4 main_v5
  let main_c_1 : IVec S_ 1 := constantI S_ 1 1#1
  let main_v7 : IVec S_ 1 := (fun x v => Host.reduce IntOp.andi x v reducesTo_S100x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg2 main_arg6 main_arg7 main_arg8 main_arg9 main_arg10 main_arg11 main_arg12 main_arg13 main_arg14 main_arg15 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S100x128 : Shape := ⟨2, ![100, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S_ : Shape := ⟨0, ![]⟩
abbrev S1600000x1 : Shape := ⟨2, ![1600000, 1]⟩
abbrev S1x1 : Shape := ⟨2, ![1, 1]⟩
abbrev S1600000x128 : Shape := ⟨2, ![1600000, 128]⟩
abbrev S1x128 : Shape := ⟨2, ![1, 128]⟩
abbrev S5000x128 : Shape := ⟨2, ![5000, 128]⟩
abbrev S100000x1 : Shape := ⟨2, ![100000, 1]⟩
abbrev S5000x1 : Shape := ⟨2, ![5000, 1]⟩

abbrev nBuf : Space → Nat
  | .hbm => 114
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .i32⟩
  | .hbm, ⟨3, _⟩ => ⟨S100x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x1, .f32⟩
  | .hbm, ⟨15, _⟩ => ⟨S1, .f32⟩
  | .hbm, ⟨16, _⟩ => ⟨S1x1600000, .i32⟩
  | .hbm, ⟨17, _⟩ => ⟨S1600000, .i32⟩
  | .hbm, ⟨18, _⟩ => ⟨S1x1600000, .i32⟩
  | .hbm, ⟨19, _⟩ => ⟨S1600000, .i32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1, .i32⟩
  | .hbm, ⟨29, _⟩ => ⟨S_, .i32⟩
  | .hbm, ⟨30, _⟩ => ⟨S1600000x1, .i32⟩
  | .hbm, ⟨31, _⟩ => ⟨S1600000x1, .i1⟩
  | .hbm, ⟨32, _⟩ => ⟨S1x1, .i32⟩
  | .hbm, ⟨33, _⟩ => ⟨S1600000x1, .i32⟩
  | .hbm, ⟨34, _⟩ => ⟨S1600000x1, .i1⟩
  | .hbm, ⟨35, _⟩ => ⟨S1600000x1, .i1⟩
  | .hbm, ⟨36, _⟩ => ⟨S_, .i1⟩
  | .hbm, ⟨37, _⟩ => ⟨S1600000, .i1⟩
  | .hbm, ⟨38, _⟩ => ⟨S1600000x128, .f32⟩
  | .hbm, ⟨39, _⟩ => ⟨S1600000x128, .i1⟩
  | .hbm, ⟨40, _⟩ => ⟨S_, .f32⟩
  | .hbm, ⟨41, _⟩ => ⟨S1600000x128, .f32⟩
  | .hbm, ⟨42, _⟩ => ⟨S1600000x128, .f32⟩
  | .hbm, ⟨43, _⟩ => ⟨S1x128, .f32⟩
  | .hbm, ⟨44, _⟩ => ⟨S100000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1, .i32⟩
  | .hbm, ⟨54, _⟩ => ⟨S_, .i32⟩
  | .hbm, ⟨55, _⟩ => ⟨S1600000x1, .i32⟩
  | .hbm, ⟨56, _⟩ => ⟨S1600000x1, .i1⟩
  | .hbm, ⟨57, _⟩ => ⟨S1x1, .i32⟩
  | .hbm, ⟨58, _⟩ => ⟨S1600000x1, .i32⟩
  | .hbm, ⟨59, _⟩ => ⟨S1600000x1, .i1⟩
  | .hbm, ⟨60, _⟩ => ⟨S1600000x1, .i1⟩
  | .hbm, ⟨61, _⟩ => ⟨S_, .i1⟩
  | .hbm, ⟨62, _⟩ => ⟨S1600000, .i1⟩
  | .hbm, ⟨63, _⟩ => ⟨S1600000x128, .f32⟩
  | .hbm, ⟨64, _⟩ => ⟨S1600000x128, .i1⟩
  | .hbm, ⟨65, _⟩ => ⟨S_, .f32⟩
  | .hbm, ⟨66, _⟩ => ⟨S1600000x128, .f32⟩
  | .hbm, ⟨67, _⟩ => ⟨S1600000x128, .f32⟩
  | .hbm, ⟨68, _⟩ => ⟨S1600000x128, .f32⟩
  | .hbm, ⟨69, _⟩ => ⟨S_, .f32⟩
  | .hbm, ⟨70, _⟩ => ⟨S1600000x128, .f32⟩
  | .hbm, ⟨71, _⟩ => ⟨S1600000x128, .f32⟩
  | .hbm, ⟨72, _⟩ => ⟨S_, .f32⟩
  | .hbm, ⟨73, _⟩ => ⟨S100000x128, .f32⟩
  | .hbm, ⟨74, _⟩ => ⟨S1600000x1, .i32⟩
  | .hbm, ⟨75, _⟩ => ⟨S100000x128, .f32⟩
  | .hbm, ⟨76, _⟩ => ⟨S1x128, .f32⟩
  | .hbm, ⟨77, _⟩ => ⟨S1x128, .f32⟩
  | .hbm, ⟨78, _⟩ => ⟨S100000x128, .f32⟩
  | .hbm, ⟨79, _⟩ => ⟨S_, .i32⟩
  | .hbm, ⟨80, _⟩ => ⟨S1600000, .i32⟩
  | .hbm, ⟨81, _⟩ => ⟨S1600000, .i1⟩
  | .hbm, ⟨82, _⟩ => ⟨S_, .i32⟩
  | .hbm, ⟨83, _⟩ => ⟨S1600000, .i32⟩
  | .hbm, ⟨84, _⟩ => ⟨S1600000, .i32⟩
  | .hbm, ⟨85, _⟩ => ⟨S1600000, .i32⟩
  | .hbm, ⟨86, _⟩ => ⟨S1600000x1, .i32⟩
  | .hbm, ⟨87, _⟩ => ⟨S1, .i32⟩
  | .hbm, ⟨88, _⟩ => ⟨S_, .i32⟩
  | .hbm, ⟨89, _⟩ => ⟨S1600000x1, .i32⟩
  | .hbm, ⟨90, _⟩ => ⟨S1600000x1, .i1⟩
  | .hbm, ⟨91, _⟩ => ⟨S1x1, .i32⟩
  | .hbm, ⟨92, _⟩ => ⟨S1600000x1, .i32⟩
  | .hbm, ⟨93, _⟩ => ⟨S1600000x1, .i1⟩
  | .hbm, ⟨94, _⟩ => ⟨S1600000x1, .i1⟩
  | .hbm, ⟨95, _⟩ => ⟨S_, .i1⟩
  | .hbm, ⟨96, _⟩ => ⟨S1600000, .i1⟩
  | .hbm, ⟨97, _⟩ => ⟨S1600000x128, .f32⟩
  | .hbm, ⟨98, _⟩ => ⟨S1600000x128, .i1⟩
  | .hbm, ⟨99, _⟩ => ⟨S_, .f32⟩
  | .hbm, ⟨100, _⟩ => ⟨S1600000x128, .f32⟩
  | .hbm, ⟨101, _⟩ => ⟨S1600000x128, .f32⟩
  | .hbm, ⟨102, _⟩ => ⟨S1600000x128, .f32⟩
  | .hbm, ⟨103, _⟩ => ⟨S_, .f32⟩
  | .hbm, ⟨104, _⟩ => ⟨S1600000x128, .f32⟩
  | .hbm, ⟨105, _⟩ => ⟨S1600000x128, .f32⟩
  | .hbm, ⟨106, _⟩ => ⟨S_, .f32⟩
  | .hbm, ⟨107, _⟩ => ⟨S100000x128, .f32⟩
  | .hbm, ⟨108, _⟩ => ⟨S1600000x1, .i32⟩
  | .hbm, ⟨109, _⟩ => ⟨S100000x128, .f32⟩
  | .hbm, ⟨110, _⟩ => ⟨S1x128, .f32⟩
  | .hbm, ⟨111, _⟩ => ⟨S1x128, .f32⟩
  | .hbm, ⟨112, _⟩ => ⟨S1x1, .f32⟩
  | .hbm, ⟨113, _⟩ => ⟨S100000x1, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x128, .f32⟩
  | .local _ .vmem, ⟨21, _⟩ => ⟨S1x128, .f32⟩
  | .local _ .vmem, ⟨22, _⟩ => ⟨S128x128, .f32⟩
  | .local _ .vmem, ⟨23, _⟩ => ⟨S1x128, .f32⟩
  | .local _ .vmem, ⟨24, _⟩ => ⟨S128x1, .f32⟩
  | .local _ .vmem, ⟨25, _⟩ => ⟨S1x1, .f32⟩
  | .local _ .vmem, ⟨26, _⟩ => ⟨S5000x1, .f32⟩
  | .local _ .vmem, ⟨27, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_cst : Ref sig .tc := ⟨.hbm, 40, rfl⟩
abbrev main_call0_v15 : Ref sig .tc := ⟨.hbm, 41, rfl⟩
abbrev main_v4 : Ref sig .tc := ⟨.hbm, 42, rfl⟩
abbrev main_v5 : Ref sig .tc := ⟨.hbm, 43, rfl⟩
abbrev main_v6 : Ref sig .tc := ⟨.hbm, 44, rfl⟩
abbrev main_call1_c : Ref sig .tc := ⟨.hbm, 45, rfl⟩
abbrev main_call1_v0 : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_c_1 : Ref sig .tc := ⟨.hbm, 53, rfl⟩
abbrev main_call1_c_2 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_c_3 : Ref sig .tc := ⟨.hbm, 61, rfl⟩
abbrev main_call1_v12 : Ref sig .tc := ⟨.hbm, 62, rfl⟩
abbrev main_call1_v13 : Ref sig .tc := ⟨.hbm, 63, rfl⟩
abbrev main_call1_v14 : Ref sig .tc := ⟨.hbm, 64, rfl⟩
abbrev main_call1_cst : Ref sig .tc := ⟨.hbm, 65, rfl⟩
abbrev main_call1_v15 : Ref sig .tc := ⟨.hbm, 66, rfl⟩
abbrev main_v7 : Ref sig .tc := ⟨.hbm, 67, rfl⟩
abbrev main_v8 : Ref sig .tc := ⟨.hbm, 68, rfl⟩
abbrev main_call2_cst : Ref sig .tc := ⟨.hbm, 69, rfl⟩
abbrev main_call2_v0 : Ref sig .tc := ⟨.hbm, 70, rfl⟩
abbrev main_v9 : Ref sig .tc := ⟨.hbm, 71, rfl⟩
abbrev main_cst : Ref sig .tc := ⟨.hbm, 72, rfl⟩
abbrev main_v10 : Ref sig .tc := ⟨.hbm, 73, rfl⟩
abbrev main_v11 : Ref sig .tc := ⟨.hbm, 74, rfl⟩
abbrev main_v12 : Ref sig .tc := ⟨.hbm, 75, rfl⟩
abbrev main_v13 : Ref sig .tc := ⟨.hbm, 76, rfl⟩
abbrev main_v14 : Ref sig .tc := ⟨.hbm, 77, rfl⟩
abbrev main_v15 : Ref sig .tc := ⟨.hbm, 78, rfl⟩
abbrev main_call3_c : Ref sig .tc := ⟨.hbm, 79, rfl⟩
abbrev main_call3_v0 : Ref sig .tc := ⟨.hbm, 80, rfl⟩
abbrev main_call3_v1 : Ref sig .tc := ⟨.hbm, 81, rfl⟩
abbrev main_call3_c_0 : Ref sig .tc := ⟨.hbm, 82, rfl⟩
abbrev main_call3_v2 : Ref sig .tc := ⟨.hbm, 83, rfl⟩
abbrev main_call3_v3 : Ref sig .tc := ⟨.hbm, 84, rfl⟩
abbrev main_call3_v4 : Ref sig .tc := ⟨.hbm, 85, rfl⟩
abbrev main_call3_v5 : Ref sig .tc := ⟨.hbm, 86, rfl⟩
abbrev main_call3_c_1 : Ref sig .tc := ⟨.hbm, 87, rfl⟩
abbrev main_call3_c_2 : Ref sig .tc := ⟨.hbm, 88, rfl⟩
abbrev main_call3_v6 : Ref sig .tc := ⟨.hbm, 89, rfl⟩
abbrev main_call3_v7 : Ref sig .tc := ⟨.hbm, 90, rfl⟩
abbrev main_call3_v8 : Ref sig .tc := ⟨.hbm, 91, rfl⟩
abbrev main_call3_v9 : Ref sig .tc := ⟨.hbm, 92, rfl⟩
abbrev main_call3_v10 : Ref sig .tc := ⟨.hbm, 93, rfl⟩
abbrev main_call3_v11 : Ref sig .tc := ⟨.hbm, 94, rfl⟩
abbrev main_call3_c_3 : Ref sig .tc := ⟨.hbm, 95, rfl⟩
abbrev main_call3_v12 : Ref sig .tc := ⟨.hbm, 96, rfl⟩
abbrev main_call3_v13 : Ref sig .tc := ⟨.hbm, 97, rfl⟩
abbrev main_call3_v14 : Ref sig .tc := ⟨.hbm, 98, rfl⟩
abbrev main_call3_cst : Ref sig .tc := ⟨.hbm, 99, rfl⟩
abbrev main_call3_v15 : Ref sig .tc := ⟨.hbm, 100, rfl⟩
abbrev main_v16 : Ref sig .tc := ⟨.hbm, 101, rfl⟩
abbrev main_v17 : Ref sig .tc := ⟨.hbm, 102, rfl⟩
abbrev main_call4_cst : Ref sig .tc := ⟨.hbm, 103, rfl⟩
abbrev main_call4_v0 : Ref sig .tc := ⟨.hbm, 104, rfl⟩
abbrev main_v18 : Ref sig .tc := ⟨.hbm, 105, rfl⟩
abbrev main_cst_0 : Ref sig .tc := ⟨.hbm, 106, rfl⟩
abbrev main_v19 : Ref sig .tc := ⟨.hbm, 107, rfl⟩
abbrev main_v20 : Ref sig .tc := ⟨.hbm, 108, rfl⟩
abbrev main_v21 : Ref sig .tc := ⟨.hbm, 109, rfl⟩
abbrev main_v22 : Ref sig .tc := ⟨.hbm, 110, rfl⟩
abbrev main_v23 : Ref sig .tc := ⟨.hbm, 111, rfl⟩
abbrev main_v24 : Ref sig .tc := ⟨.hbm, 112, rfl⟩
abbrev main_v25 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg7_0 : Ref sig .tc := ⟨.vmem, 25, rfl⟩
abbrev cc2_stg8_0 : Ref sig .tc := ⟨.vmem, 26, rfl⟩
abbrev cc2_stg8_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem7_0 : DmaSem sig := 25
abbrev cc2_sem8_0 : DmaSem sig := 26
abbrev cc2_sem8_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S5000x1 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S100000x128 : S_.BroadcastsInDim S100000x128 (![] : Fin 0 → Fin S100000x128.rank)
  shapeCasts_S5000x128_S5000x128 : S5000x128.ShapeCasts S5000x128
  shapeCasts_S1_S1x1 : S1.ShapeCasts S1x1
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  gather_S100x128_S1600000x1_S1600000x128_1_0_n_n_0_1_1128_wf : GatherDims.WF S100x128 S1600000x1 S1600000x128 [1] [0] [] [0] [] 1 ![1, 128]
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x1.size a ≤ S128x1.size a
  hwx2_6 : ∀ i : grid2.Coords, EltTy.bits .f32 = 32 ∨ (Rect.block (s := S128x1) S128x1.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x1.size a ≤ S1x1.size a
  hwx2_7 : ∀ i : grid2.Coords, EltTy.bits .f32 = 32 ∨ (Rect.block (s := S1x1) S1x1.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x1.size a ≤ S100000x1.size a
  hwx2_8 : ∀ i : grid2.Coords, EltTy.bits .f32 = 32 ∨ (Rect.block (s := S100000x1) S5000x1.size (cc2_transform_8 i) (hinb2_8 i)).WholeWords (EltTy.packing .f32)

variable [Facts₀]

def gather_S100x128_S1600000x1_S1600000x128_1_0_n_n_0_1_1128 : GatherDims S100x128 S1600000x1 S1600000x128 where
  offsetDims := [1]
  collapsedSliceDims := [0]
  operandBatchingDims := []
  startIndicesBatchingDims := []
  startIndexMap := [0]
  indexVectorDim := 1
  sliceSizes := ![1, 128]
  wf := gather_S100x128_S1600000x1_S1600000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v12) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v14) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v15) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v21) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v22) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v23) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg14) S128x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v24) S1x1.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v25) S5000x1.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S100x128 : Shape := ⟨2, ![100, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000x1 : Shape := ⟨2, ![100000, 1]⟩
abbrev S1x1 : Shape := ⟨2, ![1, 1]⟩

abbrev nBuf : Space → Nat
  | .hbm => 103
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .i32⟩
  | .hbm, ⟨3, _⟩ => ⟨S100x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x1, .f32⟩
  | .hbm, ⟨15, _⟩ => ⟨S1, .f32⟩
  | .hbm, ⟨16, _⟩ => ⟨S1x1600000, .i32⟩
  | .hbm, ⟨17, _⟩ => ⟨S1600000, .i32⟩
  | .hbm, ⟨18, _⟩ => ⟨S1x1600000, .i32⟩
  | .hbm, ⟨19, _⟩ => ⟨S1600000, .i32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x128, .f32⟩
  | .hbm, ⟨29, _⟩ => ⟨S100000x128, .f32⟩
  | .hbm, ⟨30, _⟩ => ⟨S1x128, .f32⟩
  | .hbm, ⟨31, _⟩ => ⟨S100000x128, .f32⟩
  | .hbm, ⟨32, _⟩ => ⟨S100000x128, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x128, .f32⟩
  | .hbm, ⟨42, _⟩ => ⟨S1600000x128, .f32⟩
  | .hbm, ⟨43, _⟩ => ⟨S_, .f32⟩
  | .hbm, ⟨44, _⟩ => ⟨S1600000x128, .f32⟩
  | .hbm, ⟨45, _⟩ => ⟨S1600000x128, .f32⟩
  | .hbm, ⟨46, _⟩ => ⟨S_, .f32⟩
  | .hbm, ⟨47, _⟩ => ⟨S100000x128, .f32⟩
  | .hbm, ⟨48, _⟩ => ⟨S1600000x1, .i32⟩
  | .hbm, ⟨49, _⟩ => ⟨S100000x128, .f32⟩
  | .hbm, ⟨50, _⟩ => ⟨S100000x128, .f32⟩
  | .hbm, ⟨51, _⟩ => ⟨S100000x128, .f32⟩
  | .hbm, ⟨52, _⟩ => ⟨S1x128, .f32⟩
  | .hbm, ⟨53, _⟩ => ⟨S100000x128, .f32⟩
  | .hbm, ⟨54, _⟩ => ⟨S100000x128, .f32⟩
  | .hbm, ⟨55, _⟩ => ⟨S_, .f32⟩
  | .hbm, ⟨56, _⟩ => ⟨S100000x128, .f32⟩
  | .hbm, ⟨57, _⟩ => ⟨S100000x128, .f32⟩
  | .hbm, ⟨58, _⟩ => ⟨S100000x128, .f32⟩
  | .hbm, ⟨59, _⟩ => ⟨S1x128, .f32⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S_, .f32⟩
  | .hbm, ⟨64, _⟩ => ⟨S100000x128, .f32⟩
  | .hbm, ⟨65, _⟩ => ⟨S100000x128, .f32⟩
  | .hbm, ⟨66, _⟩ => ⟨S_, .i32⟩
  | .hbm, ⟨67, _⟩ => ⟨S1600000, .i32⟩
  | .hbm, ⟨68, _⟩ => ⟨S1600000, .i1⟩
  | .hbm, ⟨69, _⟩ => ⟨S_, .i32⟩
  | .hbm, ⟨70, _⟩ => ⟨S1600000, .i32⟩
  | .hbm, ⟨71, _⟩ => ⟨S1600000, .i32⟩
  | .hbm, ⟨72, _⟩ => ⟨S1600000, .i32⟩
  | .hbm, ⟨73, _⟩ => ⟨S1600000x1, .i32⟩
  | .hbm, ⟨74, _⟩ => ⟨S1600000x128, .f32⟩
  | .hbm, ⟨75, _⟩ => ⟨S1600000x128, .f32⟩
  | .hbm, ⟨76, _⟩ => ⟨S_, .f32⟩
  | .hbm, ⟨77, _⟩ => ⟨S1600000x128, .f32⟩
  | .hbm, ⟨78, _⟩ => ⟨S1600000x128, .f32⟩
  | .hbm, ⟨79, _⟩ => ⟨S_, .f32⟩
  | .hbm, ⟨80, _⟩ => ⟨S100000x128, .f32⟩
  | .hbm, ⟨81, _⟩ => ⟨S1600000x1, .i32⟩
  | .hbm, ⟨82, _⟩ => ⟨S100000x128, .f32⟩
  | .hbm, ⟨83, _⟩ => ⟨S100000x128, .f32⟩
  | .hbm, ⟨84, _⟩ => ⟨S100000x128, .f32⟩
  | .hbm, ⟨85, _⟩ => ⟨S1x128, .f32⟩
  | .hbm, ⟨86, _⟩ => ⟨S100000x128, .f32⟩
  | .hbm, ⟨87, _⟩ => ⟨S100000x128, .f32⟩
  | .hbm, ⟨88, _⟩ => ⟨S_, .f32⟩
  | .hbm, ⟨89, _⟩ => ⟨S100000x128, .f32⟩
  | .hbm, ⟨90, _⟩ => ⟨S100000x128, .f32⟩
  | .hbm, ⟨91, _⟩ => ⟨S100000x128, .f32⟩
  | .hbm, ⟨92, _⟩ => ⟨S1x128, .f32⟩
  | .hbm, ⟨93, _⟩ => ⟨S100000x128, .f32⟩
  | .hbm, ⟨94, _⟩ => ⟨S100000x128, .f32⟩
  | .hbm, ⟨95, _⟩ => ⟨S100000x128, .f32⟩
  | .hbm, ⟨96, _⟩ => ⟨S_, .f32⟩
  | .hbm, ⟨97, _⟩ => ⟨S100000x128, .f32⟩
  | .hbm, ⟨98, _⟩ => ⟨S100000x128, .f32⟩
  | .hbm, ⟨99, _⟩ => ⟨S100000x1, .f32⟩
  | .hbm, ⟨100, _⟩ => ⟨S1x1, .f32⟩
  | .hbm, ⟨101, _⟩ => ⟨S100000x1, .f32⟩
  | .hbm, ⟨102, _⟩ => ⟨S100000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c_1 : Ref sig .tc := ⟨.hbm, 33, rfl⟩
abbrev main_v15 : Ref sig .tc := ⟨.hbm, 34, rfl⟩
abbrev main_v16 : Ref sig .tc := ⟨.hbm, 35, rfl⟩
abbrev main_c_2 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_call0_cst : Ref sig .tc := ⟨.hbm, 43, rfl⟩
abbrev main_call0_v0 : Ref sig .tc := ⟨.hbm, 44, rfl⟩
abbrev main_v23 : Ref sig .tc := ⟨.hbm, 45, rfl⟩
abbrev main_cst : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_call1_cst : Ref sig .tc := ⟨.hbm, 55, rfl⟩
abbrev main_call1_v0 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_call2_cst : Ref sig .tc := ⟨.hbm, 63, rfl⟩
abbrev main_call2_v0 : Ref sig .tc := ⟨.hbm, 64, rfl⟩
abbrev main_v38 : Ref sig .tc := ⟨.hbm, 65, rfl⟩
abbrev main_c_3 : Ref sig .tc := ⟨.hbm, 66, rfl⟩
abbrev main_v39 : Ref sig .tc := ⟨.hbm, 67, rfl⟩
abbrev main_v40 : Ref sig .tc := ⟨.hbm, 68, rfl⟩
abbrev main_c_4 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_call3_cst : Ref sig .tc := ⟨.hbm, 76, rfl⟩
abbrev main_call3_v0 : Ref sig .tc := ⟨.hbm, 77, rfl⟩
abbrev main_v47 : Ref sig .tc := ⟨.hbm, 78, rfl⟩
abbrev main_cst_5 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_call4_cst : Ref sig .tc := ⟨.hbm, 88, rfl⟩
abbrev main_call4_v0 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_call5_cst : Ref sig .tc := ⟨.hbm, 96, rfl⟩
abbrev main_call5_v0 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S1600000x128 : S_.BroadcastsInDim S1600000x128 (![] : Fin 0 → Fin S1600000x128.rank)
  bcast_S_S100000x128 : S_.BroadcastsInDim S100000x128 (![] : Fin 0 → Fin S100000x128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  gather_S100x128_S1600000x1_S1600000x128_1_0_n_n_0_1_1128_wf : GatherDims.WF S100x128 S1600000x1 S1600000x128 [1] [0] [] [0] [] 1 ![1, 128]
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x1_S100000x1_1_0_0_1_n_n_wf : DotDims.WF S100000x128 S128x1 S100000x1 [1] [0] [0] [1] [] []

variable [Facts₀]

def gather_S100x128_S1600000x1_S1600000x128_1_0_n_n_0_1_1128 : GatherDims S100x128 S1600000x1 S1600000x128 where
  offsetDims := [1]
  collapsedSliceDims := [0]
  operandBatchingDims := []
  startIndicesBatchingDims := []
  startIndexMap := [0]
  indexVectorDim := 1
  sliceSizes := ![1, 128]
  wf := gather_S100x128_S1600000x1_S1600000x128_1_0_n_n_0_1_1128_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.Dense.lean ====
/-
  The mathematics of the three dense stages, stated once over explicit coordinates and for any number of rows,
  so that one definition serves a 5000-row block and the whole 100000-row array.

  * `linAt`  : row p of x times W, plus a bias:           (x W + b)[p, q] = sum_k x[p, k] W[k, q] + b[q].
  * `updAt`  : one message-passing update of a node row:  with s = agg + h,
                 t = max (s W1 + b1) 0,  u = t W2 + b2,  the new row is max (u + h) 0.
  * `outAt`  : the updated row projected to one number:   (updAt ...)[p, :] . Wo[:, 0] + bo.

  Every stage is ROW-LOCAL: entry (p, q) of the result depends on row p of the row-indexed operands only. That is
  what lets a grid of 5000-row blocks compute the same array as one product over all 100000 rows, and it is stated
  here as the congruence lemmas `linAt_rows`, `updAt_rows`, `outAt_rows`.

  The arithmetic is on the extended reals. No law beyond congruence is needed: both programs form the same sums of
  the same products in the same nesting, so nothing here asks the inputs to be finite.
-/
import Idealize.ShloMosaic.PureOps.Ideal
import Idealize.ShloMosaic.Lib.ValueIdx

noncomputable section

open scoped BigOperators

namespace Cert.Dense

open Idealize.ShloMosaic Idealize.ShloMosaic.ValueIdx

/-- An array of `n` rows and `d` columns of extended reals. -/
abbrev Mat (n d : Nat) : Type := (⟨2, ![n, d]⟩ : Shape).Idx → EReal

/-- Entry (p, q) of `x W + b`: the contraction runs over the 128 columns of row p of x. -/
def linAt {n : Nat} (x : Mat n 128) (W : Mat 128 128) (b : Fin 128 → EReal) (p : Fin n) (q : Fin 128) : EReal :=
  (∑ k : Fin 128, x (ix2 p k) * W (ix2 k q)) + b q

/-- The hidden activation of the update, entry (p, j): max ((agg + h) W1 + b1) 0. -/
def hidAt {n : Nat} (agg h : Mat n 128) (W1 : Mat 128 128) (b1 : Fin 128 → EReal) (p : Fin n) (j : Fin 128) : EReal :=
  max ((∑ k : Fin 128, (agg (ix2 p k) + h (ix2 p k)) * W1 (ix2 k j)) + b1 j) 0

/-- Entry (p, q) of the updated node features: max (hid W2 + b2 + h) 0. -/
def updAt {n : Nat} (agg h : Mat n 128) (W1 : Mat 128 128) (b1 : Fin 128 → EReal) (W2 : Mat 128 128) (b2 : Fin 128 → EReal)
    (p : Fin n) (q : Fin 128) : EReal :=
  max (((∑ j : Fin 128, hidAt agg h W1 b1 p j * W2 (ix2 j q)) + b2 q) + h (ix2 p q)) 0

/-- Row p of the updated features against the one output column, plus the output bias. -/
def outAt {n : Nat} (agg h : Mat n 128) (W1 : Mat 128 128) (b1 : Fin 128 → EReal) (W2 : Mat 128 128) (b2 : Fin 128 → EReal)
    (Wo : Mat 128 1) (bo : EReal) (p : Fin n) : EReal :=
  (∑ j : Fin 128, updAt agg h W1 b1 W2 b2 p j * Wo (ix2 j (0 : Fin 1))) + bo

/-! ## Row-locality -/

theorem linAt_rows {n n' : Nat} (x : Mat n 128) (x' : Mat n' 128) (W : Mat 128 128) (b : Fin 128 → EReal)
    (p : Fin n) (p' : Fin n') (hx : ∀ k : Fin 128, x' (ix2 p' k) = x (ix2 p k)) (q : Fin 128) :
    linAt x' W b p' q = linAt x W b p q := by
  unfold linAt
  simp only [hx]

theorem hidAt_rows {n n' : Nat} (agg h : Mat n 128) (agg' h' : Mat n' 128) (W1 : Mat 128 128) (b1 : Fin 128 → EReal)
    (p : Fin n) (p' : Fin n') (ha : ∀ k : Fin 128, agg' (ix2 p' k) = agg (ix2 p k))
    (hh : ∀ k : Fin 128, h' (ix2 p' k) = h (ix2 p k)) (j : Fin 128) :
    hidAt agg' h' W1 b1 p' j = hidAt agg h W1 b1 p j := by
  unfold hidAt
  simp only [ha, hh]

theorem updAt_rows {n n' : Nat} (agg h : Mat n 128) (agg' h' : Mat n' 128) (W1 : Mat 128 128) (b1 : Fin 128 → EReal)
    (W2 : Mat 128 128) (b2 : Fin 128 → EReal)
    (p : Fin n) (p' : Fin n') (ha : ∀ k : Fin 128, agg' (ix2 p' k) = agg (ix2 p k))
    (hh : ∀ k : Fin 128, h' (ix2 p' k) = h (ix2 p k)) (q : Fin 128) :
    updAt agg' h' W1 b1 W2 b2 p' q = updAt agg h W1 b1 W2 b2 p q := by
  unfold updAt
  simp only [hidAt_rows agg h agg' h' W1 b1 p p' ha hh, hh]

theorem outAt_rows {n n' : Nat} (agg h : Mat n 128) (agg' h' : Mat n' 128) (W1 : Mat 128 128) (b1 : Fin 128 → EReal)
    (W2 : Mat 128 128) (b2 : Fin 128 → EReal) (Wo : Mat 128 1) (bo : EReal)
    (p : Fin n) (p' : Fin n') (ha : ∀ k : Fin 128, agg' (ix2 p' k) = agg (ix2 p k))
    (hh : ∀ k : Fin 128, h' (ix2 p' k) = h (ix2 p k)) :
    outAt agg' h' W1 b1 W2 b2 Wo bo p' = outAt agg h W1 b1 W2 b2 Wo bo p := by
  unfold outAt
  simp only [updAt_rows agg h agg' h' W1 b1 W2 b2 p p' ha hh]

/-! ## The stages as whole arrays -/

/-- `x W + b` as an array: entry i is `linAt` at i's two coordinates. -/
def linArr {n : Nat} (x : Mat n 128) (W : Mat 128 128) (b : Fin 128 → EReal) : Mat n 128 :=
  fun i => linAt x W b ⟨(i 0).val, idx2_lt0 i⟩ ⟨(i 1).val, idx2_lt1 i⟩

def updArr {n : Nat} (agg h : Mat n 128) (W1 : Mat 128 128) (b1 : Fin 128 → EReal) (W2 : Mat 128 128) (b2 : Fin 128 → EReal) :
    Mat n 128 :=
  fun i => updAt agg h W1 b1 W2 b2 ⟨(i 0).val, idx2_lt0 i⟩ ⟨(i 1).val, idx2_lt1 i⟩

def outArr {n : Nat} (agg h : Mat n 128) (W1 : Mat 128 128) (b1 : Fin 128 → EReal) (W2 : Mat 128 128) (b2 : Fin 128 → EReal)
    (Wo : Mat 128 1) (bo : EReal) : Mat n 1 :=
  fun i => outAt agg h W1 b1 W2 b2 Wo bo ⟨(i 0).val, idx2_lt0 i⟩

theorem linArr_ix2 {n : Nat} (x : Mat n 128) (W : Mat 128 128) (b : Fin 128 → EReal) (p : Fin n) (q : Fin 128) :
    linArr x W b (ix2 p q) = linAt x W b p q := rfl

theorem updArr_ix2 {n : Nat} (agg h : Mat n 128) (W1 : Mat 128 128) (b1 : Fin 128 → EReal) (W2 : Mat 128 128)
    (b2 : Fin 128 → EReal) (p : Fin n) (q : Fin 128) :
    updArr agg h W1 b1 W2 b2 (ix2 p q) = updAt agg h W1 b1 W2 b2 p q := rfl

theorem outArr_ix2 {n : Nat} (agg h : Mat n 128) (W1 : Mat 128 128) (b1 : Fin 128 → EReal) (W2 : Mat 128 128)
    (b2 : Fin 128 → EReal) (Wo : Mat 128 1) (bo : EReal) (p : Fin n) (z : Fin 1) :
    outArr agg h W1 b1 W2 b2 Wo bo (ix2 p z) = outAt agg h W1 b1 W2 b2 Wo bo p := rfl

end Cert.Dense

end
-- ==== Proof.Pay.lean ====
/-
  The three kernel bodies read at one entry of the block they store.

  Each body loads whole blocks, forms matrix products against the (whole) weight blocks into a zero accumulator, adds
  a bias row broadcast down the rows, rectifies, and stores. A change of float format is the identity on the
  extended reals, so at an entry (p, q) the stored value is the dense stage of Proof/Dense.lean at row p of the
  loaded blocks.
-/
import proofs.«414363_j9328668967068_2_alg».proof.Proof.Gen.KernelIdeal.Skeleton
import proofs.«414363_j9328668967068_2_alg».proof.Proof.Dense
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.Dense
open scoped BigOperators

/-! ## The operand indices of the two products

For output index i and contraction index c, the left operand is read at (i 0, c) and the right at (c, i 1). -/

theorem lhs_sq_0 (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_sq_1 (i : S5000x128.Idx) (c : dot_S5000x128_S128x128_S5000x128_1_0_0_1_n_n.contr.Idx) :
    (dot_S5000x128_S128x128_S5000x128_1_0_0_1_n_n.lhsIdx i c 1).val = (c ⟨0, by decide⟩).val :=
  dot_S5000x128_S128x128_S5000x128_1_0_0_1_n_n.lhsIdx_val_of_single rfl i c
theorem rhs_sq_0 (i : S5000x128.Idx) (c : dot_S5000x128_S128x128_S5000x128_1_0_0_1_n_n.contr.Idx) :
    (dot_S5000x128_S128x128_S5000x128_1_0_0_1_n_n.rhsIdx i c 0).val = (c ⟨0, by decide⟩).val :=
  dot_S5000x128_S128x128_S5000x128_1_0_0_1_n_n.rhsIdx_val_of_single rfl i c
theorem rhs_sq_1 (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

theorem lhs_col_0 (i : S5000x1.Idx) (c : dot_S5000x128_S128x1_S5000x1_1_0_0_1_n_n.contr.Idx) :
    (dot_S5000x128_S128x1_S5000x1_1_0_0_1_n_n.lhsIdx i c 0).val = (i 0).val := by
  unfold DotDims.lhsIdx
  rw [dif_neg (show ¬(0 : Fin S5000x128.rank) ∈ dot_S5000x128_S128x1_S5000x1_1_0_0_1_n_n.lhsBatch by decide), dif_pos (show (0 : Fin S5000x128.rank) ∈ dot_S5000x128_S128x1_S5000x1_1_0_0_1_n_n.lhsNonContracting by decide)]
  rfl
theorem lhs_col_1 (i : S5000x1.Idx) (c : dot_S5000x128_S128x1_S5000x1_1_0_0_1_n_n.contr.Idx) :
    (dot_S5000x128_S128x1_S5000x1_1_0_0_1_n_n.lhsIdx i c 1).val = (c ⟨0, by decide⟩).val :=
  dot_S5000x128_S128x1_S5000x1_1_0_0_1_n_n.lhsIdx_val_of_single rfl i c
theorem rhs_col_0 (i : S5000x1.Idx) (c : dot_S5000x128_S128x1_S5000x1_1_0_0_1_n_n.contr.Idx) :
    (dot_S5000x128_S128x1_S5000x1_1_0_0_1_n_n.rhsIdx i c 0).val = (c ⟨0, by decide⟩).val :=
  dot_S5000x128_S128x1_S5000x1_1_0_0_1_n_n.rhsIdx_val_of_single rfl i c
theorem rhs_col_1 (i : S5000x1.Idx) (c : dot_S5000x128_S128x1_S5000x1_1_0_0_1_n_n.contr.Idx) :
    (dot_S5000x128_S128x1_S5000x1_1_0_0_1_n_n.rhsIdx i c 1).val = (i 1).val := by
  unfold DotDims.rhsIdx
  rw [dif_neg (show ¬(1 : Fin S128x1.rank) ∈ dot_S5000x128_S128x1_S5000x1_1_0_0_1_n_n.rhsBatch by decide), dif_pos (show (1 : Fin S128x1.rank) ∈ dot_S5000x128_S128x1_S5000x1_1_0_0_1_n_n.rhsNonContracting by decide)]
  rfl

/-! ## A product into a zero accumulator, read at an entry -/

/-- [5000,128] x [128,128] into zero, at (p, q): the sum over k of lhs[p,k] * rhs[k,q], whatever the operands' formats. -/
theorem mm_sq_apply {φ₁ φ₂ : FTy} (lhs : FVec Ideal S5000x128 φ₁) (rhs : FVec Ideal S128x128 φ₂) (p : Fin 5000) (q : Fin 128) :
    matmul dot_S5000x128_S128x128_S5000x128_1_0_0_1_n_n none lhs rhs (constant S5000x128 .f32 0x00000000#32) (ix2 p q)
      = ∑ k : Fin 128, lhs (ix2 p k) * rhs (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_sq_0 _ _
    | ⟨1, _⟩ => exact (lhs_sq_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_sq_0 _ _).trans hk
    | ⟨1, _⟩ => exact rhs_sq_1 _ _)
  rw [el, er]

/-- [5000,128] x [128,1] into zero, at (p, 0): the sum over k of lhs[p,k] * rhs[k,0]. -/
theorem mm_col_apply {φ₁ φ₂ : FTy} (lhs : FVec Ideal S5000x128 φ₁) (rhs : FVec Ideal S128x1 φ₂) (p : Fin 5000) (z : Fin 1) :
    matmul dot_S5000x128_S128x1_S5000x1_1_0_0_1_n_n none lhs rhs (constant S5000x1 .f32 0x00000000#32) (ix2 p z)
      = ∑ k : Fin 128, lhs (ix2 p k) * rhs (ix2 k z) := by
  simp only [matmul]
  rw [Ideal.matmul_constant_zero_apply, ← Equiv.sum_comp (contrEquiv1 dot_S5000x128_S128x1_S5000x1_1_0_0_1_n_n 128 rfl rfl).symm]
  refine Finset.sum_congr rfl fun k _ => ?_
  have hk := contrEquiv1_symm_val dot_S5000x128_S128x1_S5000x1_1_0_0_1_n_n 128 rfl rfl k
  have el : dot_S5000x128_S128x1_S5000x1_1_0_0_1_n_n.lhsIdx (ix2 p z) ((contrEquiv1 dot_S5000x128_S128x1_S5000x1_1_0_0_1_n_n 128 rfl rfl).symm k) = ix2 p k := funext fun a => Fin.ext (by
    match a with
    | ⟨0, _⟩ => exact lhs_col_0 _ _
    | ⟨1, _⟩ => exact (lhs_col_1 _ _).trans hk)
  have er : dot_S5000x128_S128x1_S5000x1_1_0_0_1_n_n.rhsIdx (ix2 p z) ((contrEquiv1 dot_S5000x128_S128x1_S5000x1_1_0_0_1_n_n 128 rfl rfl).symm k) = ix2 k z := funext fun a => Fin.ext (by
    match a with
    | ⟨0, _⟩ => exact (rhs_col_0 _ _).trans hk
    | ⟨1, _⟩ => exact rhs_col_1 _ _)
  rw [el, er]

/-- The f32 zero the bodies rectify against is the extended real 0. -/
theorem zero_f32 : (FloatOps.ofBits FTy.f32 0x00000000#32 : Ideal .f32) = 0 := Ideal.ofBits_zero_f32

/-! ## The three bodies

Each body is opened to its sequence of values; the index (p, q) is pushed through the pointwise operations, the
format changes and same-shape casts drop out, the bias row broadcast reads its one row, each product into zero is the
sum above, and what is left is the dense stage's defining expression. -/

/-- The input projection's block: x W + b at (p, q). -/
theorem pay0 (x0 : Vec Ideal S5000x128 .f32) (x1 : Vec Ideal S128x128 .f32) (x2 : Vec Ideal S1x128 .f32)
    (p : Fin 5000) (q : Fin 128) :
    Gen.k0_pay1 (F := Ideal) x0 x1 x2 (ix2 p q) = linAt x0 x1 (fun j => x2 (ix2 (0 : Fin 1) j)) p q := by
  unfold Gen.k0_pay1
  simp only [addf_apply, mm_sq_apply, truncf_apply, shapeCast_self, broadcastTo_1b_ab_apply]
  rfl

/-- The update's block at (p, q). -/
theorem pay1 (x0 x2 : Vec Ideal S5000x128 .f32) (x6 : Vec Ideal S128x128 .f32) (x9 : Vec Ideal S1x128 .f32)
    (x16 : Vec Ideal S128x128 .f32) (x19 : Vec Ideal S1x128 .f32) (p : Fin 5000) (q : Fin 128) :
    Gen.k1_pay1 (F := Ideal) x0 x2 x6 x9 x16 x19 (ix2 p q)
      = updAt x0 x2 x6 (fun j => x9 (ix2 (0 : Fin 1) j)) x16 (fun j => x19 (ix2 (0 : Fin 1) j)) p q := by
  unfold Gen.k1_pay1
  simp only [addf_apply, maximumf_apply, mm_sq_apply, truncf_apply, shapeCast_self, broadcastTo_1b_ab_apply,
    broadcast_apply, zero_f32]
  rfl

/-- The fused update and projection's block at row p. -/
theorem pay2 (x0 x2 : Vec Ideal S5000x128 .f32) (x6 : Vec Ideal S128x128 .f32) (x9 : Vec Ideal S1x128 .f32)
    (x16 : Vec Ideal S128x128 .f32) (x19 : Vec Ideal S1x128 .f32) (x27 : Vec Ideal S128x1 .f32) (x30 : Vec Ideal S1x1 .f32)
    (p : Fin 5000) :
    Gen.k2_pay1 (F := Ideal) x0 x2 x6 x9 x16 x19 x27 x30 (ix2 p (0 : Fin 1))
      = outAt x0 x2 x6 (fun j => x9 (ix2 (0 : Fin 1) j)) x16 (fun j => x19 (ix2 (0 : Fin 1) j)) x27
          (x30 (ix2 (0 : Fin 1) (0 : Fin 1))) p := by
  unfold Gen.k2_pay1
  simp only [addf_apply, maximumf_apply, mm_sq_apply, mm_col_apply, truncf_apply, shapeCast_self,
    broadcastTo_1b_ab_apply, broadcast_apply, zero_f32]
  rfl

end Cert.KernelIdeal.Pay

end
-- ==== Proof.Final.lean ====
/-
  From blocks to arrays. Each of the three calls runs a grid of 20 points; point t reads rows 5000 t .. 5000 t + 4999
  of its row-indexed operands, the whole of each weight and bias, and writes rows 5000 t .. 5000 t + 4999 of its
  result. Since every stage is row-local (Proof/Dense.lean), block t of the result is the restriction of ONE
  whole-array function to those rows, and the 20 blocks tile the array: the array after the call is that function.
-/
import proofs.«414363_j9328668967068_2_alg».proof.Proof.Gen.KernelIdeal.Frame
import proofs.«414363_j9328668967068_2_alg».proof.Proof.Pay
import proofs.«414363_j9328668967068_2_alg».proof.Proof.Dense
import Idealize.ShloMosaic.Lib.Pipeline.Value
import Idealize.ShloMosaic.Lib.ValueIdx

set_option maxRecDepth 16384

noncomputable section

namespace Cert.KernelIdeal.Final

open Idealize.ShloMosaic Idealize.ShloMosaic.TcCoe Idealize.ShloMosaic.ValueIdx Idealize.SL.Sem Cert.KernelIdeal Cert.Dense

variable (V : (c : Dev nD) → (b : Ref sig .tc) → Buf (Elt Ideal) ((c : Thread nD τ).loc b))

/-- The zero offset of every rectangle the bodies load and store. -/
theorem off_zero : (![0, 0] : Fin 2 → Nat) = fun _ => 0 := funext fun a => by fin_cases a <;> rfl

/-! ## The input projection -/

/-- The index maps of the first call over its 20 points: the row-indexed windows sit at block (t, 0), the weight and the
    bias at block (0, 0). -/
theorem maps0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of block t of x is row 5000 t + p of x. -/
theorem x_block0 (c : Dev nD) (t : Fin cfg0.N) (p : Fin 5000) (k : Fin 128) (r : Fin 100000)
    (hr : r.val = 5000 * t.val + p.val) :
    (Gen.iblk0 V c 0 t : Vec Ideal S5000x128 .f32) (ix2 p k) = (V c (Pipeline.arrRef spec0 0) : Mat 100000 128) (ix2 r k) := by
  obtain ⟨e0, e1, -⟩ := maps0 t
  unfold Gen.iblk0
  rw [View.read_apply]
  have hi : ((cfg0.win 0).blk t).view.emb (ix2 p k) = ix2 r k := by
    funext a
    apply Fin.ext
    match a with
    | ⟨0, _⟩ => show win0_0.index t (0 : Fin 2) * 5000 + 1 * p.val = r.val; rw [e0, hr]; omega
    | ⟨1, _⟩ => show win0_0.index t (1 : Fin 2) * 128 + 1 * k.val = k.val; rw [e1]; omega
  rw [hi]
  rfl

/-- The weight's one block is the weight. -/
theorem w_block0 (c : Dev nD) (t : Fin cfg0.N) :
    (Gen.iblk0 V c 1 t : Vec Ideal S128x128 .f32) = (V c (Pipeline.arrRef spec0 1) : Mat 128 128) := by
  obtain ⟨-, -, e0, e1, -⟩ := maps0 t
  funext j
  unfold Gen.iblk0
  rw [View.read_apply]
  have hi : ((cfg0.win 1).blk t).view.emb j = j := by
    funext a
    apply Fin.ext
    match a with
    | ⟨0, _⟩ => show win0_1.index t (0 : Fin 2) * 128 + 1 * (j 0).val = (j 0).val; rw [e0]; omega
    | ⟨1, _⟩ => show win0_1.index t (1 : Fin 2) * 128 + 1 * (j 1).val = (j 1).val; rw [e1]; omega
  rw [hi]
  rfl

/-- The bias row's one block is the bias row. -/
theorem b_block0 (c : Dev nD) (t : Fin cfg0.N) :
    (Gen.iblk0 V c 2 t : Vec Ideal S1x128 .f32) = (V c (Pipeline.arrRef spec0 2) : Mat 1 128) := by
  obtain ⟨-, -, -, -, e0, e1, -⟩ := maps0 t
  funext j
  unfold Gen.iblk0
  rw [View.read_apply]
  have hi : ((cfg0.win 2).blk t).view.emb j = j := by
    funext a
    apply Fin.ext
    match a with
    | ⟨0, _⟩ => show win0_2.index t (0 : Fin 2) * 1 + 1 * (j 0).val = (j 0).val; rw [e0]; omega
    | ⟨1, _⟩ => show win0_2.index t (1 : Fin 2) * 128 + 1 * (j 1).val = (j 1).val; rw [e1]; omega
  rw [hi]
  rfl

/-- One entry of a stored block: if row p of the loaded block is row r of the array, the body's value at (p, q) is
    the whole-array product's at (r, q). -/
theorem lin_entry (x0 : Vec Ideal S5000x128 .f32) (x1 : Vec Ideal S128x128 .f32) (x2 : Vec Ideal S1x128 .f32)
    (A : Mat 100000 128) (p : Fin 5000) (q : Fin 128) (r : Fin 100000)
    (hx0 : ∀ k : Fin 128, x0 (ix2 p k) = A (ix2 r k)) :
    Gen.k0_pay1 (F := Ideal) x0 x1 x2 (ix2 p q) = linArr A x1 (fun q' => x2 (ix2 (0 : Fin 1) q')) (ix2 r q) := by
  rw [Pay.pay0, linArr_ix2]
  exact linAt_rows A x0 x1 _ r p hx0 q

/-- An index of the result lies in point t's block iff each coordinate lies in the block's range on its axis. -/
theorem mem_block0 (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v6).slice (win0_3.rect t)).set ↔ _
  rw [View.set_slice_whole, Rect.mem_set_unit]
  exact Iff.rfl

/-- What point t writes back is block t of the whole-array product. -/
theorem flushed0 (c : Dev nD) (t : Fin cfg0.N) :
    (Gen.dat0 (F := Ideal) V c).flushed 3 t
      = ((cfg0.win 3).blk t).view.read (Elt Ideal)
          (linArr (V c (Pipeline.arrRef spec0 0)) (V c (Pipeline.arrRef spec0 1))
            (fun q => (V c (Pipeline.arrRef spec0 2) : Mat 1 128) (ix2 (0 : Fin 1) q))) := by
  show (cfg0.win 3).cut (grid0.coords t) ((Gen.dat0 V c).after 3 t) = _
  rw [Gen.after0_3]
  unfold Gen.out0_3
  rw [View.canon_unit_zero off_zero]
  simp only [View.ld_unit_zero (S := S5000x128) off_zero, View.ld_unit_zero (S := S128x128) off_zero,
    View.ld_unit_zero (S := S1x128) off_zero]
  rw [w_block0, b_block0]
  obtain ⟨-, -, -, -, -, -, e0, e1⟩ := maps0 t
  funext j
  obtain ⟨p, q, rfl⟩ : ∃ (p : Fin 5000) (q : Fin 128), j = ix2 p q := ⟨j 0, j 1, eq_ix2 j⟩
  have hr : 5000 * t.val + p.val < 100000 := by
    have h1 : t.val < 20 := t.isLt
    have h2 := p.isLt
    omega
  have hi : ((cfg0.win 3).blk t).view.emb (ix2 p q) = ix2 ⟨5000 * t.val + p.val, hr⟩ q := by
    funext a
    apply Fin.ext
    match a with
    | ⟨0, _⟩ => show win0_3.index t (0 : Fin 2) * 5000 + 1 * p.val = 5000 * t.val + p.val; rw [e0]; omega
    | ⟨1, _⟩ => show win0_3.index t (1 : Fin 2) * 128 + 1 * q.val = q.val; rw [e1]; omega
  rw [View.read_apply, hi]
  exact lin_entry _ _ _ _ p q _ (fun k => x_block0 V c t p k _ rfl)

/-- Row r of the result lies in the block of point r / 5000. -/
theorem cover0 (i : S100000x128.Idx) :
    ∃ t : Fin cfg0.N, (cfg0.win 3).flush t = true ∧ i ∈ ((cfg0.win 3).blk t).view.set := by
  have h0 : (i 0).val < 100000 := idx2_lt0 i
  have h1 : (i 1).val < 128 := idx2_lt1 i
  obtain ⟨t, ht⟩ : ∃ t : Fin cfg0.N, t.val = (i 0).val / 5000 :=
    ⟨⟨(i 0).val / 5000, by show (i 0).val / 5000 < 20; omega⟩, rfl⟩
  obtain ⟨-, -, -, -, -, -, e0, e1⟩ := maps0 t
  refine ⟨t, Gen.flush0_3 t, ?_⟩
  rw [mem_block0]
  intro a
  match a with
  | ⟨0, _⟩ =>
    show win0_3.index t (0 : Fin 2) * 5000 ≤ (i 0).val ∧ (i 0).val < win0_3.index t (0 : Fin 2) * 5000 + 5000
    rw [e0]; omega
  | ⟨1, _⟩ =>
    show win0_3.index t (1 : Fin 2) * 128 ≤ (i 1).val ∧ (i 1).val < win0_3.index t (1 : Fin 2) * 128 + 128
    rw [e1]; omega

theorem final0 (c : Dev nD) :
    ((Gen.dat0 (F := Ideal) V c).arrAt 3 cfg0.N : Mat 100000 128)
      = linArr (V c (Pipeline.arrRef spec0 0)) (V c (Pipeline.arrRef spec0 1))
          (fun q => (V c (Pipeline.arrRef spec0 2) : Mat 1 128) (ix2 (0 : Fin 1) q)) :=
  (Gen.dat0 (F := Ideal) V c).arrAt_eq_of_cover 3 _ (fun t _ => flushed0 V c t) cover0

/-! ## The update -/

/-- The index maps of the second call over its 20 points: the two row-indexed inputs and the result sit at block (t, 0),
    each weight and bias row at block (0, 0). -/
theorem maps1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = t.val ∧ win1_6.index t (1 : Fin 2) = 0) :=
  (by decide +kernel : ∀ t : Fin grid1.N, _)

/-- Row p of block t of the aggregated messages is row 5000 t + p of the array. -/
theorem agg_block1 (c : Dev nD) (t : Fin cfg1.N) (p : Fin 5000) (k : Fin 128) (r : Fin 100000)
    (hr : r.val = 5000 * t.val + p.val) :
    (Gen.iblk1 V c 0 t : Vec Ideal S5000x128 .f32) (ix2 p k) = (V c (Pipeline.arrRef spec1 0) : Mat 100000 128) (ix2 r k) := by
  obtain ⟨⟨e0, e1⟩, -⟩ := maps1 t
  unfold Gen.iblk1
  rw [View.read_apply]
  have hi : ((cfg1.win 0).blk t).view.emb (ix2 p k) = ix2 r k := by
    funext a
    apply Fin.ext
    match a with
    | ⟨0, _⟩ => show win1_0.index t (0 : Fin 2) * 5000 + 1 * p.val = r.val; rw [e0, hr]; omega
    | ⟨1, _⟩ => show win1_0.index t (1 : Fin 2) * 128 + 1 * k.val = k.val; rw [e1]; omega
  rw [hi]
  rfl

/-- Row p of block t of the node features is row 5000 t + p of the array. -/
theorem h_block1 (c : Dev nD) (t : Fin cfg1.N) (p : Fin 5000) (k : Fin 128) (r : Fin 100000)
    (hr : r.val = 5000 * t.val + p.val) :
    (Gen.iblk1 V c 1 t : Vec Ideal S5000x128 .f32) (ix2 p k) = (V c (Pipeline.arrRef spec1 1) : Mat 100000 128) (ix2 r k) := by
  obtain ⟨-, ⟨e0, e1⟩, -⟩ := maps1 t
  unfold Gen.iblk1
  rw [View.read_apply]
  have hi : ((cfg1.win 1).blk t).view.emb (ix2 p k) = ix2 r k := by
    funext a
    apply Fin.ext
    match a with
    | ⟨0, _⟩ => show win1_1.index t (0 : Fin 2) * 5000 + 1 * p.val = r.val; rw [e0, hr]; omega
    | ⟨1, _⟩ => show win1_1.index t (1 : Fin 2) * 128 + 1 * k.val = k.val; rw [e1]; omega
  rw [hi]
  rfl

/-- The first weight's one block is the weight. -/
theorem w1_block1 (c : Dev nD) (t : Fin cfg1.N) :
    (Gen.iblk1 V c 2 t : Vec Ideal S128x128 .f32) = (V c (Pipeline.arrRef spec1 2) : Mat 128 128) := by
  obtain ⟨-, -, ⟨e0, e1⟩, -⟩ := maps1 t
  funext j
  unfold Gen.iblk1
  rw [View.read_apply]
  have hi : ((cfg1.win 2).blk t).view.emb j = j := by
    funext a
    apply Fin.ext
    match a with
    | ⟨0, _⟩ => show win1_2.index t (0 : Fin 2) * 128 + 1 * (j 0).val = (j 0).val; rw [e0]; omega
    | ⟨1, _⟩ => show win1_2.index t (1 : Fin 2) * 128 + 1 * (j 1).val = (j 1).val; rw [e1]; omega
  rw [hi]
  rfl

/-- The first bias row's one block is the bias row. -/
theorem b1_block1 (c : Dev nD) (t : Fin cfg1.N) :
    (Gen.iblk1 V c 3 t : Vec Ideal S1x128 .f32) = (V c (Pipeline.arrRef spec1 3) : Mat 1 128) := by
  obtain ⟨-, -, -, ⟨e0, e1⟩, -⟩ := maps1 t
  funext j
  unfold Gen.iblk1
  rw [View.read_apply]
  have hi : ((cfg1.win 3).blk t).view.emb j = j := by
    funext a
    apply Fin.ext
    match a with
    | ⟨0, _⟩ => show win1_3.index t (0 : Fin 2) * 1 + 1 * (j 0).val = (j 0).val; rw [e0]; omega
    | ⟨1, _⟩ => show win1_3.index t (1 : Fin 2) * 128 + 1 * (j 1).val = (j 1).val; rw [e1]; omega
  rw [hi]
  rfl

/-- The second weight's one block is the weight. -/
theorem w2_block1 (c : Dev nD) (t : Fin cfg1.N) :
    (Gen.iblk1 V c 4 t : Vec Ideal S128x128 .f32) = (V c (Pipeline.arrRef spec1 4) : Mat 128 128) := by
  obtain ⟨-, -, -, -, ⟨e0, e1⟩, -⟩ := maps1 t
  funext j
  unfold Gen.iblk1
  rw [View.read_apply]
  have hi : ((cfg1.win 4).blk t).view.emb j = j := by
    funext a
    apply Fin.ext
    match a with
    | ⟨0, _⟩ => show win1_4.index t (0 : Fin 2) * 128 + 1 * (j 0).val = (j 0).val; rw [e0]; omega
    | ⟨1, _⟩ => show win1_4.index t (1 : Fin 2) * 128 + 1 * (j 1).val = (j 1).val; rw [e1]; omega
  rw [hi]
  rfl

/-- The second bias row's one block is the bias row. -/
theorem b2_block1 (c : Dev nD) (t : Fin cfg1.N) :
    (Gen.iblk1 V c 5 t : Vec Ideal S1x128 .f32) = (V c (Pipeline.arrRef spec1 5) : Mat 1 128) := by
  obtain ⟨-, -, -, -, -, ⟨e0, e1⟩, -⟩ := maps1 t
  funext j
  unfold Gen.iblk1
  rw [View.read_apply]
  have hi : ((cfg1.win 5).blk t).view.emb j = j := by
    funext a
    apply Fin.ext
    match a with
    | ⟨0, _⟩ => show win1_5.index t (0 : Fin 2) * 1 + 1 * (j 0).val = (j 0).val; rw [e0]; omega
    | ⟨1, _⟩ => show win1_5.index t (1 : Fin 2) * 128 + 1 * (j 1).val = (j 1).val; rw [e1]; omega
  rw [hi]
  rfl

/-- One entry of a stored block: if row p of both loaded row blocks is row r of their arrays, the body's value at
    (p, q) is the whole-array update's at (r, q). -/
theorem upd_entry (x0 x1 : Vec Ideal S5000x128 .f32) (x2 : Vec Ideal S128x128 .f32) (x3 : Vec Ideal S1x128 .f32)
    (x4 : Vec Ideal S128x128 .f32) (x5 : Vec Ideal S1x128 .f32) (A H : Mat 100000 128)
    (W1 : Mat 128 128) (B1 : Mat 1 128) (W2 : Mat 128 128) (B2 : Mat 1 128)
    (p : Fin 5000) (q : Fin 128) (r : Fin 100000)
    (ha : ∀ k : Fin 128, x0 (ix2 p k) = A (ix2 r k)) (hh : ∀ k : Fin 128, x1 (ix2 p k) = H (ix2 r k))
    (h2 : x2 = W1) (h3 : x3 = B1) (h4 : x4 = W2) (h5 : x5 = B2) :
    Gen.k1_pay1 (F := Ideal) x0 x1 x2 x3 x4 x5 (ix2 p q)
      = updArr A H W1 (fun q' => B1 (ix2 (0 : Fin 1) q')) W2 (fun q' => B2 (ix2 (0 : Fin 1) q')) (ix2 r q) := by
  subst h2 h3 h4 h5
  rw [Pay.pay1, updArr_ix2]
  exact updAt_rows A H x0 x1 x2 _ x4 _ r p ha hh q

/-- An index of the result lies in point t's block iff each coordinate lies in the block's range on its axis. -/
theorem mem_block1 (t : Fin cfg1.N) (i : S100000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v15).slice (win1_6.rect t)).set ↔ _
  rw [View.set_slice_whole, Rect.mem_set_unit]
  exact Iff.rfl

set_option maxHeartbeats 1000000 in
/-- What point t writes back is block t of the whole-array update. -/
theorem flushed1 (c : Dev nD) (t : Fin cfg1.N) :
    (Gen.dat1 (F := Ideal) V c).flushed 6 t
      = ((cfg1.win 6).blk t).view.read (Elt Ideal)
          (updArr (V c (Pipeline.arrRef spec1 0)) (V c (Pipeline.arrRef spec1 1)) (V c (Pipeline.arrRef spec1 2))
            (fun q => (V c (Pipeline.arrRef spec1 3) : Mat 1 128) (ix2 (0 : Fin 1) q)) (V c (Pipeline.arrRef spec1 4))
            (fun q => (V c (Pipeline.arrRef spec1 5) : Mat 1 128) (ix2 (0 : Fin 1) q))) := by
  show (cfg1.win 6).cut (grid1.coords t) ((Gen.dat1 V c).after 6 t) = _
  rw [Gen.after1_6]
  unfold Gen.out1_6
  rw [View.canon_unit_zero off_zero]
  simp only [View.ld_unit_zero (S := S5000x128) off_zero, View.ld_unit_zero (S := S128x128) off_zero,
    View.ld_unit_zero (S := S1x128) off_zero]
  obtain ⟨-, -, -, -, -, -, ⟨e0, e1⟩⟩ := maps1 t
  funext j
  obtain ⟨p, q, rfl⟩ : ∃ (p : Fin 5000) (q : Fin 128), j = ix2 p q := ⟨j 0, j 1, eq_ix2 j⟩
  have hr : 5000 * t.val + p.val < 100000 := by
    have h1 : t.val < 20 := t.isLt
    have h2 := p.isLt
    omega
  have hi : ((cfg1.win 6).blk t).view.emb (ix2 p q) = ix2 ⟨5000 * t.val + p.val, hr⟩ q := by
    funext a
    apply Fin.ext
    match a with
    | ⟨0, _⟩ => show win1_6.index t (0 : Fin 2) * 5000 + 1 * p.val = 5000 * t.val + p.val; rw [e0]; omega
    | ⟨1, _⟩ => show win1_6.index t (1 : Fin 2) * 128 + 1 * q.val = q.val; rw [e1]; omega
  rw [View.read_apply, hi]
  exact upd_entry _ _ _ _ _ _ _ _ _ _ _ _ p q _ (fun k => agg_block1 V c t p k _ rfl) (fun k => h_block1 V c t p k _ rfl)
    (w1_block1 V c t) (b1_block1 V c t) (w2_block1 V c t) (b2_block1 V c t)

/-- Row r of the result lies in the block of point r / 5000. -/
theorem cover1 (i : S100000x128.Idx) :
    ∃ t : Fin cfg1.N, (cfg1.win 6).flush t = true ∧ i ∈ ((cfg1.win 6).blk t).view.set := by
  have h0 : (i 0).val < 100000 := idx2_lt0 i
  have h1 : (i 1).val < 128 := idx2_lt1 i
  obtain ⟨t, ht⟩ : ∃ t : Fin cfg1.N, t.val = (i 0).val / 5000 :=
    ⟨⟨(i 0).val / 5000, by show (i 0).val / 5000 < 20; omega⟩, rfl⟩
  obtain ⟨-, -, -, -, -, -, ⟨e0, e1⟩⟩ := maps1 t
  refine ⟨t, Gen.flush1_6 t, ?_⟩
  rw [mem_block1]
  intro a
  match a with
  | ⟨0, _⟩ =>
    show win1_6.index t (0 : Fin 2) * 5000 ≤ (i 0).val ∧ (i 0).val < win1_6.index t (0 : Fin 2) * 5000 + 5000
    rw [e0]; omega
  | ⟨1, _⟩ =>
    show win1_6.index t (1 : Fin 2) * 128 ≤ (i 1).val ∧ (i 1).val < win1_6.index t (1 : Fin 2) * 128 + 128
    rw [e1]; omega

theorem final1 (c : Dev nD) :
    ((Gen.dat1 (F := Ideal) V c).arrAt 6 cfg1.N : Mat 100000 128)
      = updArr (V c (Pipeline.arrRef spec1 0)) (V c (Pipeline.arrRef spec1 1)) (V c (Pipeline.arrRef spec1 2))
          (fun q => (V c (Pipeline.arrRef spec1 3) : Mat 1 128) (ix2 (0 : Fin 1) q)) (V c (Pipeline.arrRef spec1 4))
          (fun q => (V c (Pipeline.arrRef spec1 5) : Mat 1 128) (ix2 (0 : Fin 1) q)) :=
  (Gen.dat1 (F := Ideal) V c).arrAt_eq_of_cover 6 _ (fun t _ => flushed1 V c t) cover1

/-! ## The update fused with the projection -/

/-- The index maps of the third call over its 20 points: the two row-indexed inputs and the result sit at block (t, 0),
    each weight, each bias row and the output bias at block (0, 0). -/
theorem maps2 : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = t.val ∧ win2_8.index t (1 : Fin 2) = 0) :=
  (by decide +kernel : ∀ t : Fin grid2.N, _)

/-- Row p of block t of the aggregated messages is row 5000 t + p of the array. -/
theorem agg_block2 (c : Dev nD) (t : Fin cfg2.N) (p : Fin 5000) (k : Fin 128) (r : Fin 100000)
    (hr : r.val = 5000 * t.val + p.val) :
    (Gen.iblk2 V c 0 t : Vec Ideal S5000x128 .f32) (ix2 p k) = (V c (Pipeline.arrRef spec2 0) : Mat 100000 128) (ix2 r k) := by
  obtain ⟨⟨e0, e1⟩, -⟩ := maps2 t
  unfold Gen.iblk2
  rw [View.read_apply]
  have hi : ((cfg2.win 0).blk t).view.emb (ix2 p k) = ix2 r k := by
    funext a
    apply Fin.ext
    match a with
    | ⟨0, _⟩ => show win2_0.index t (0 : Fin 2) * 5000 + 1 * p.val = r.val; rw [e0, hr]; omega
    | ⟨1, _⟩ => show win2_0.index t (1 : Fin 2) * 128 + 1 * k.val = k.val; rw [e1]; omega
  rw [hi]
  rfl

/-- Row p of block t of the node features is row 5000 t + p of the array. -/
theorem h_block2 (c : Dev nD) (t : Fin cfg2.N) (p : Fin 5000) (k : Fin 128) (r : Fin 100000)
    (hr : r.val = 5000 * t.val + p.val) :
    (Gen.iblk2 V c 1 t : Vec Ideal S5000x128 .f32) (ix2 p k) = (V c (Pipeline.arrRef spec2 1) : Mat 100000 128) (ix2 r k) := by
  obtain ⟨-, ⟨e0, e1⟩, -⟩ := maps2 t
  unfold Gen.iblk2
  rw [View.read_apply]
  have hi : ((cfg2.win 1).blk t).view.emb (ix2 p k) = ix2 r k := by
    funext a
    apply Fin.ext
    match a with
    | ⟨0, _⟩ => show win2_1.index t (0 : Fin 2) * 5000 + 1 * p.val = r.val; rw [e0, hr]; omega
    | ⟨1, _⟩ => show win2_1.index t (1 : Fin 2) * 128 + 1 * k.val = k.val; rw [e1]; omega
  rw [hi]
  rfl

/-- The first weight's one block is the weight. -/
theorem w1_block2 (c : Dev nD) (t : Fin cfg2.N) :
    (Gen.iblk2 V c 2 t : Vec Ideal S128x128 .f32) = (V c (Pipeline.arrRef spec2 2) : Mat 128 128) := by
  obtain ⟨-, -, ⟨e0, e1⟩, -⟩ := maps2 t
  funext j
  unfold Gen.iblk2
  rw [View.read_apply]
  have hi : ((cfg2.win 2).blk t).view.emb j = j := by
    funext a
    apply Fin.ext
    match a with
    | ⟨0, _⟩ => show win2_2.index t (0 : Fin 2) * 128 + 1 * (j 0).val = (j 0).val; rw [e0]; omega
    | ⟨1, _⟩ => show win2_2.index t (1 : Fin 2) * 128 + 1 * (j 1).val = (j 1).val; rw [e1]; omega
  rw [hi]
  rfl

/-- The first bias row's one block is the bias row. -/
theorem b1_block2 (c : Dev nD) (t : Fin cfg2.N) :
    (Gen.iblk2 V c 3 t : Vec Ideal S1x128 .f32) = (V c (Pipeline.arrRef spec2 3) : Mat 1 128) := by
  obtain ⟨-, -, -, ⟨e0, e1⟩, -⟩ := maps2 t
  funext j
  unfold Gen.iblk2
  rw [View.read_apply]
  have hi : ((cfg2.win 3).blk t).view.emb j = j := by
    funext a
    apply Fin.ext
    match a with
    | ⟨0, _⟩ => show win2_3.index t (0 : Fin 2) * 1 + 1 * (j 0).val = (j 0).val; rw [e0]; omega
    | ⟨1, _⟩ => show win2_3.index t (1 : Fin 2) * 128 + 1 * (j 1).val = (j 1).val; rw [e1]; omega
  rw [hi]
  rfl

/-- The second weight's one block is the weight. -/
theorem w2_block2 (c : Dev nD) (t : Fin cfg2.N) :
    (Gen.iblk2 V c 4 t : Vec Ideal S128x128 .f32) = (V c (Pipeline.arrRef spec2 4) : Mat 128 128) := by
  obtain ⟨-, -, -, -, ⟨e0, e1⟩, -⟩ := maps2 t
  funext j
  unfold Gen.iblk2
  rw [View.read_apply]
  have hi : ((cfg2.win 4).blk t).view.emb j = j := by
    funext a
    apply Fin.ext
    match a with
    | ⟨0, _⟩ => show win2_4.index t (0 : Fin 2) * 128 + 1 * (j 0).val = (j 0).val; rw [e0]; omega
    | ⟨1, _⟩ => show win2_4.index t (1 : Fin 2) * 128 + 1 * (j 1).val = (j 1).val; rw [e1]; omega
  rw [hi]
  rfl

/-- The second bias row's one block is the bias row. -/
theorem b2_block2 (c : Dev nD) (t : Fin cfg2.N) :
    (Gen.iblk2 V c 5 t : Vec Ideal S1x128 .f32) = (V c (Pipeline.arrRef spec2 5) : Mat 1 128) := by
  obtain ⟨-, -, -, -, -, ⟨e0, e1⟩, -⟩ := maps2 t
  funext j
  unfold Gen.iblk2
  rw [View.read_apply]
  have hi : ((cfg2.win 5).blk t).view.emb j = j := by
    funext a
    apply Fin.ext
    match a with
    | ⟨0, _⟩ => show win2_5.index t (0 : Fin 2) * 1 + 1 * (j 0).val = (j 0).val; rw [e0]; omega
    | ⟨1, _⟩ => show win2_5.index t (1 : Fin 2) * 128 + 1 * (j 1).val = (j 1).val; rw [e1]; omega
  rw [hi]
  rfl

/-- The output column's one block is the column. -/
theorem wo_block2 (c : Dev nD) (t : Fin cfg2.N) :
    (Gen.iblk2 V c 6 t : Vec Ideal S128x1 .f32) = (V c (Pipeline.arrRef spec2 6) : Mat 128 1) := by
  obtain ⟨-, -, -, -, -, -, ⟨e0, e1⟩, -⟩ := maps2 t
  funext j
  unfold Gen.iblk2
  rw [View.read_apply]
  have hi : ((cfg2.win 6).blk t).view.emb j = j := by
    funext a
    apply Fin.ext
    match a with
    | ⟨0, _⟩ => show win2_6.index t (0 : Fin 2) * 128 + 1 * (j 0).val = (j 0).val; rw [e0]; omega
    | ⟨1, _⟩ => show win2_6.index t (1 : Fin 2) * 1 + 1 * (j 1).val = (j 1).val; rw [e1]; omega
  rw [hi]
  rfl

/-- The output bias's one block is the bias. -/
theorem bo_block2 (c : Dev nD) (t : Fin cfg2.N) :
    (Gen.iblk2 V c 7 t : Vec Ideal S1x1 .f32) = (V c (Pipeline.arrRef spec2 7) : Mat 1 1) := by
  obtain ⟨-, -, -, -, -, -, -, ⟨e0, e1⟩, -⟩ := maps2 t
  funext j
  unfold Gen.iblk2
  rw [View.read_apply]
  have hi : ((cfg2.win 7).blk t).view.emb j = j := by
    funext a
    apply Fin.ext
    match a with
    | ⟨0, _⟩ => show win2_7.index t (0 : Fin 2) * 1 + 1 * (j 0).val = (j 0).val; rw [e0]; omega
    | ⟨1, _⟩ => show win2_7.index t (1 : Fin 2) * 1 + 1 * (j 1).val = (j 1).val; rw [e1]; omega
  rw [hi]
  rfl

/-- One entry of a stored block: if row p of both loaded row blocks is row r of their arrays, the body's value at
    row p is the whole-array projection's at row r. -/
theorem out_entry (x0 x1 : Vec Ideal S5000x128 .f32) (x2 : Vec Ideal S128x128 .f32) (x3 : Vec Ideal S1x128 .f32)
    (x4 : Vec Ideal S128x128 .f32) (x5 : Vec Ideal S1x128 .f32) (x6 : Vec Ideal S128x1 .f32) (x7 : Vec Ideal S1x1 .f32)
    (A H : Mat 100000 128) (W1 : Mat 128 128) (B1 : Mat 1 128) (W2 : Mat 128 128) (B2 : Mat 1 128)
    (Wo : Mat 128 1) (Bo : Mat 1 1) (p : Fin 5000) (r : Fin 100000)
    (ha : ∀ k : Fin 128, x0 (ix2 p k) = A (ix2 r k)) (hh : ∀ k : Fin 128, x1 (ix2 p k) = H (ix2 r k))
    (h2 : x2 = W1) (h3 : x3 = B1) (h4 : x4 = W2) (h5 : x5 = B2) (h6 : x6 = Wo) (h7 : x7 = Bo) :
    Gen.k2_pay1 (F := Ideal) x0 x1 x2 x3 x4 x5 x6 x7 (ix2 p (0 : Fin 1))
      = outArr A H W1 (fun q' => B1 (ix2 (0 : Fin 1) q')) W2 (fun q' => B2 (ix2 (0 : Fin 1) q')) Wo
          (Bo (ix2 (0 : Fin 1) (0 : Fin 1))) (ix2 r (0 : Fin 1)) := by
  subst h2 h3 h4 h5 h6 h7
  rw [Pay.pay2, outArr_ix2]
  exact outAt_rows A H x0 x1 x2 _ x4 _ x6 _ r p ha hh

/-- An index of the result lies in point t's block iff each coordinate lies in the block's range on its axis. -/
theorem mem_block2 (t : Fin cfg2.N) (i : S100000x1.Idx) :
    i ∈ ((cfg2.win 8).blk t).view.set ↔ ∀ a : Fin 2, win2_8.index t a * S5000x1.size a ≤ (i a).val
      ∧ (i a).val < win2_8.index t a * S5000x1.size a + S5000x1.size a := by
  show i ∈ ((View.whole main_v25).slice (win2_8.rect t)).set ↔ _
  rw [View.set_slice_whole, Rect.mem_set_unit]
  exact Iff.rfl

set_option maxHeartbeats 1000000 in
/-- What point t writes back is block t of the whole-array projection. -/
theorem flushed2 (c : Dev nD) (t : Fin cfg2.N) :
    (Gen.dat2 (F := Ideal) V c).flushed 8 t
      = ((cfg2.win 8).blk t).view.read (Elt Ideal)
          (outArr (V c (Pipeline.arrRef spec2 0)) (V c (Pipeline.arrRef spec2 1)) (V c (Pipeline.arrRef spec2 2))
            (fun q => (V c (Pipeline.arrRef spec2 3) : Mat 1 128) (ix2 (0 : Fin 1) q)) (V c (Pipeline.arrRef spec2 4))
            (fun q => (V c (Pipeline.arrRef spec2 5) : Mat 1 128) (ix2 (0 : Fin 1) q)) (V c (Pipeline.arrRef spec2 6))
            ((V c (Pipeline.arrRef spec2 7) : Mat 1 1) (ix2 (0 : Fin 1) (0 : Fin 1)))) := by
  show (cfg2.win 8).cut (grid2.coords t) ((Gen.dat2 V c).after 8 t) = _
  rw [Gen.after2_8]
  unfold Gen.out2_8
  rw [View.canon_unit_zero off_zero]
  simp only [View.ld_unit_zero (S := S5000x128) off_zero, View.ld_unit_zero (S := S128x128) off_zero,
    View.ld_unit_zero (S := S1x128) off_zero, View.ld_unit_zero (S := S128x1) off_zero,
    View.ld_unit_zero (S := S1x1) off_zero]
  obtain ⟨-, -, -, -, -, -, -, -, ⟨e0, e1⟩⟩ := maps2 t
  funext j
  obtain ⟨p, z, rfl⟩ : ∃ (p : Fin 5000) (z : Fin 1), j = ix2 p z := ⟨j 0, j 1, eq_ix2 j⟩
  obtain rfl : z = 0 := Subsingleton.elim _ _
  have hr : 5000 * t.val + p.val < 100000 := by
    have h1 : t.val < 20 := t.isLt
    have h2 := p.isLt
    omega
  have hi : ((cfg2.win 8).blk t).view.emb (ix2 p (0 : Fin 1)) = ix2 ⟨5000 * t.val + p.val, hr⟩ (0 : Fin 1) := by
    funext a
    apply Fin.ext
    match a with
    | ⟨0, _⟩ => show win2_8.index t (0 : Fin 2) * 5000 + 1 * p.val = 5000 * t.val + p.val; rw [e0]; omega
    | ⟨1, _⟩ => show win2_8.index t (1 : Fin 2) * 1 + 1 * 0 = 0; rw [e1]
  rw [View.read_apply, hi]
  exact out_entry _ _ _ _ _ _ _ _ _ _ _ _ _ _ _ _ p _ (fun k => agg_block2 V c t p k _ rfl) (fun k => h_block2 V c t p k _ rfl)
    (w1_block2 V c t) (b1_block2 V c t) (w2_block2 V c t) (b2_block2 V c t) (wo_block2 V c t) (bo_block2 V c t)

/-- Row r of the result lies in the block of point r / 5000. -/
theorem cover2 (i : S100000x1.Idx) :
    ∃ t : Fin cfg2.N, (cfg2.win 8).flush t = true ∧ i ∈ ((cfg2.win 8).blk t).view.set := by
  have h0 : (i 0).val < 100000 := idx2_lt0 i
  have h1 : (i 1).val < 1 := idx2_lt1 i
  obtain ⟨t, ht⟩ : ∃ t : Fin cfg2.N, t.val = (i 0).val / 5000 :=
    ⟨⟨(i 0).val / 5000, by show (i 0).val / 5000 < 20; omega⟩, rfl⟩
  obtain ⟨-, -, -, -, -, -, -, -, ⟨e0, e1⟩⟩ := maps2 t
  refine ⟨t, Gen.flush2_8 t, ?_⟩
  rw [mem_block2]
  intro a
  match a with
  | ⟨0, _⟩ =>
    show win2_8.index t (0 : Fin 2) * 5000 ≤ (i 0).val ∧ (i 0).val < win2_8.index t (0 : Fin 2) * 5000 + 5000
    rw [e0]; omega
  | ⟨1, _⟩ =>
    show win2_8.index t (1 : Fin 2) * 1 ≤ (i 1).val ∧ (i 1).val < win2_8.index t (1 : Fin 2) * 1 + 1
    rw [e1]; omega

theorem final2 (c : Dev nD) :
    ((Gen.dat2 (F := Ideal) V c).arrAt 8 cfg2.N : Mat 100000 1)
      = outArr (V c (Pipeline.arrRef spec2 0)) (V c (Pipeline.arrRef spec2 1)) (V c (Pipeline.arrRef spec2 2))
          (fun q => (V c (Pipeline.arrRef spec2 3) : Mat 1 128) (ix2 (0 : Fin 1) q)) (V c (Pipeline.arrRef spec2 4))
          (fun q => (V c (Pipeline.arrRef spec2 5) : Mat 1 128) (ix2 (0 : Fin 1) q)) (V c (Pipeline.arrRef spec2 6))
          ((V c (Pipeline.arrRef spec2 7) : Mat 1 1) (ix2 (0 : Fin 1) (0 : Fin 1))) :=
  (Gen.dat2 (F := Ideal) V c).arrAt_eq_of_cover 8 _ (fun t _ => flushed2 V c t) cover2

end Cert.KernelIdeal.Final

end
-- ==== Proof.Forms.lean ====
/-
  The host-side forms the two programs spell, named once so that the certificate can speak about them without
  opening them.

  Reference side (`Ref`): a dense layer `x W + b`, the rectifier, one message-passing update, the final projection,
  the index wrap `i < 0 -> i + n` that numpy indexing applies before a gather, and the aggregation
  `agg[d] = sum over edges e with dst[e] = d of max (h[src[e]] + emb[e]) 0`, written with exactly the operations the
  reference program prints.

  Kernel side (`Ker`): the kernel gathers through `take` in its fill mode: the same wrapped index and the same
  gather, followed by a selection that replaces a row by a fill value where the wrapped index lies outside
  `0 .. n - 1`. `Ker.take` is that term; where every index is in range its mask is all ones and it is the plain
  gather (proved in the module on index ranges).
-/
import proofs.«414363_j9328668967068_2_alg».proof.Proof.Gen.KernelIdeal
import proofs.«414363_j9328668967068_2_alg».proof.Proof.Gen.ReferenceIdeal

noncomputable section

namespace Cert.Forms

open Idealize.ShloMosaic

variable {F : FTy → Type} [FloatOps F]

namespace Ref
open Cert.ReferenceIdeal Cert.ReferenceIdeal.Gen

/-- max x 0 on the node array. -/
def reluN (x : FVec F S100000x128 .f32) : FVec F S100000x128 .f32 :=
  maximumf x (broadcastInDim S100000x128 ![] bcast_S_S100000x128 (constant S_ .f32 0x00000000#32))

/-- max x 0 on the edge array. -/
def reluE (x : FVec F S1600000x128 .f32) : FVec F S1600000x128 .f32 :=
  maximumf x (broadcastInDim S1600000x128 ![] bcast_S_S1600000x128 (constant S_ .f32 0x00000000#32))

/-- x W + b, the bias broadcast along the rows. -/
def lin (x : FVec F S100000x128 .f32) (W : FVec F S128x128 .f32) (b : FVec F S128 .f32) : FVec F S100000x128 .f32 :=
  addf (Host.dotGeneral dot_S100000x128_S128x128_S100000x128_1_0_0_1_n_n none x W)
    (broadcastInDim S100000x128 ![0, 1] bcast_S1x128_S100000x128_0_1 (broadcastInDim S1x128 ![1] bcast_S128_S1x128_1 b))

/-- One update: max (max ((agg + h) W1 + b1) 0 W2 + b2 + h) 0. -/
def upd (agg h : FVec F S100000x128 .f32) (W1 : FVec F S128x128 .f32) (b1 : FVec F S128 .f32) (W2 : FVec F S128x128 .f32)
    (b2 : FVec F S128 .f32) : FVec F S100000x128 .f32 :=
  reluN (addf (lin (reluN (lin (addf agg h) W1 b1)) W2 b2) h)

/-- The projection of node features to one number per node. -/
def proj (x : FVec F S100000x128 .f32) (Wo : FVec F S128x1 .f32) (bo : FVec F S1 .f32) : FVec F S100000x1 .f32 :=
  addf (Host.dotGeneral dot_S100000x128_S128x1_S100000x1_1_0_0_1_n_n none x Wo)
    (broadcastInDim S100000x1 ![0, 1] bcast_S1x1_S100000x1_0_1 (broadcastInDim S1x1 ![1] bcast_S1_S1x1_1 bo))

/-- numpy's index wrap, as a column of start indices: i < 0 -> i + n. -/
def wrap (n : BitVec 32) (idx : IVec S1600000 32) : IVec S1600000x1 32 :=
  broadcastInDim S1600000x1 ![0] bcast_S1600000_S1600000x1_0
    (select (cmpi .slt idx (broadcastInDim S1600000 ![] bcast_S_S1600000 (constantI S_ 32 0#32)))
      (addi idx (broadcastInDim S1600000 ![] bcast_S_S1600000 (constantI S_ 32 n))) idx)

/-- Row 0 of the edge index: the source node of every edge. -/
def srcOf (ei : IVec S2x1600000 32) : IVec S1600000 32 :=
  shapeCast _ (extractStridedSlice S1x1600000 ![0, 0] ei slices_S2x1600000_S1x1600000_0_0) shapeCasts_S1x1600000_S1600000

/-- Row 1 of the edge index: the destination node of every edge. -/
def dstOf (ei : IVec S2x1600000 32) : IVec S1600000 32 :=
  shapeCast _ (extractStridedSlice S1x1600000 ![1, 0] ei slices_S2x1600000_S1x1600000_1_0) shapeCasts_S1x1600000_S1600000

/-- The messages summed at their destinations, from the gathered source rows `g` and the edge embeddings `e`. -/
def agg (g e : FVec F S1600000x128 .f32) (dst : IVec S1600000 32) : FVec F S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst) (reluE (addf g e))

/-- Rows of the node array at the wrapped source indices. -/
def gatherN (h : FVec F S100000x128 .f32) (w : IVec S1600000x1 32) : FVec F S1600000x128 .f32 :=
  Host.gather gather_S100000x128_S1600000x1_S1600000x128_1_0_n_n_0_1_1128 h w

/-- Rows of the 100-row embedding table at the wrapped edge attributes. -/
def gatherT (t : FVec F S100x128 .f32) (w : IVec S1600000x1 32) : FVec F S1600000x128 .f32 :=
  Host.gather gather_S100x128_S1600000x1_S1600000x128_1_0_n_n_0_1_1128 t w

end Ref

namespace Ker
open Cert.KernelIdeal Cert.KernelIdeal.Gen

/-- The wrapped index column, as the kernel's program spells it. -/
def wrap (n : BitVec 32) (idx : IVec S1600000 32) : IVec S1600000x1 32 :=
  broadcastInDim S1600000x1 ![0] bcast_S1600000_S1600000x1_0
    (select (cmpi .slt idx (broadcastInDim S1600000 ![] bcast_S_S1600000 (constantI S_ 32 0#32)))
      (addi idx (broadcastInDim S1600000 ![] bcast_S_S1600000 (constantI S_ 32 n))) idx)

/-- Per edge: is the wrapped index inside 0 .. last? (an and over the one index component) -/
def inRange (last : BitVec 32) (w : IVec S1600000x1 32) : IVec S1600000 1 :=
  Host.reduce IntOp.andi
    (andi (cmpi .sge w (broadcastInDim S1600000x1 ![] bcast_S_S1600000x1 (constantI S_ 32 0#32)))
      (cmpi .sle w (broadcastInDim S1600000x1 ![0, 1] bcast_S1x1_S1600000x1_0_1
        (broadcastInDim S1x1 ![1] bcast_S1_S1x1_1 (constantI S1 32 last)))))
    (constantI S_ 1 1#1) reducesTo_S1600000x1_S1600000_d1 h_S_

/-- Keep a gathered row where the mask is set, the fill value elsewhere. -/
def fill (mask : IVec S1600000 1) (g : FVec F S1600000x128 .f32) : FVec F S1600000x128 .f32 :=
  select (broadcastInDim S1600000x128 ![0] bcast_S1600000_S1600000x128_0 mask) g
    (broadcastInDim S1600000x128 ![] bcast_S_S1600000x128 (constant S_ .f32 0x7FC00000#32))

/-- `take` of node rows in fill mode. -/
def takeN (h : FVec F S100000x128 .f32) (idx : IVec S1600000 32) : FVec F S1600000x128 .f32 :=
  fill (inRange 99999#32 (wrap 100000#32 idx))
    (Host.gather gather_S100000x128_S1600000x1_S1600000x128_1_0_n_n_0_1_1128 h (wrap 100000#32 idx))

/-- `take` of embedding-table rows in fill mode. -/
def takeT (t : FVec F S100x128 .f32) (idx : IVec S1600000 32) : FVec F S1600000x128 .f32 :=
  fill (inRange 99#32 (wrap 100#32 idx))
    (Host.gather gather_S100x128_S1600000x1_S1600000x128_1_0_n_n_0_1_1128 t (wrap 100#32 idx))

end Ker

end Cert.Forms

end
-- ==== Proof.Glue.lean ====
/-
  The kernel program's result as a function of its arguments.

  @main is three calls among stretches of host operations. Reading the buffers at each segment boundary back to the
  launch memory gives, in order:
    src, dst   rows 0 and 1 of the edge index;            emb   the fill-mode take of the embedding table at the edge attributes;
    h0 = x Win + b_in                                     (first call, by the blocks-to-array statement);
    agg(h) = the sum at each destination of max (take(h, src) + emb) 0   (the host stretch between calls);
    h1 = the update of h0 with agg(h0)                    (second call);
    out = the projected update of h1 with agg(h1)         (third call).
  A host stretch leaves every buffer it does not write as it found it, and a call leaves every buffer that is not one
  of its arrays as it found it; that is all the walking back uses. The typed references of an outlined function move
  contents to the buffer's own type and back: the identity, stated once per buffer over a variable.
-/
import proofs.«414363_j9328668967068_2_alg».proof.Proof.Gen.KernelIdeal.Frame
import proofs.«414363_j9328668967068_2_alg».proof.Proof.Final
import proofs.«414363_j9328668967068_2_alg».proof.Proof.Forms
import proofs.«414363_j9328668967068_2_alg».proof.Proof.Dense
import Idealize.ShloMosaic.Lib.StableHlo.Run
import Idealize.ShloMosaic.Lib.ValueIdx

set_option maxRecDepth 16384

noncomputable section

namespace Cert.Forms.Ker

open Idealize.ShloMosaic Cert.KernelIdeal Cert.KernelIdeal.Gen

variable {F : FTy → Type} [FloatOps F]

/-- Row 0 of the edge index, as the kernel's program spells it. -/
def srcOf (ei : IVec S2x1600000 32) : IVec S1600000 32 :=
  shapeCast _ (extractStridedSlice S1x1600000 ![0, 0] ei slices_S2x1600000_S1x1600000_0_0) shapeCasts_S1x1600000_S1600000

/-- Row 1 of the edge index. -/
def dstOf (ei : IVec S2x1600000 32) : IVec S1600000 32 :=
  shapeCast _ (extractStridedSlice S1x1600000 ![1, 0] ei slices_S2x1600000_S1x1600000_1_0) shapeCasts_S1x1600000_S1600000

/-- The rectified messages summed at their destinations. -/
def agg (g e : FVec F S1600000x128 .f32) (dst : IVec S1600000 32) : FVec F S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (maximumf (addf g e) (broadcastInDim S1600000x128 ![] bcast_S_S1600000x128 (constant S_ .f32 0x00000000#32)))

end Cert.Forms.Ker

namespace Cert.KernelIdeal.Glue

open Idealize.ShloMosaic Idealize.ShloMosaic.TcCoe Idealize.ShloMosaic.ValueIdx Idealize.ShloMosaic.StableHlo Idealize.SL.Sem
open Cert.KernelIdeal Cert.KernelIdeal.Gen Cert.Forms Cert.Dense

/-! ## Typed references: to the buffer's type and back -/

theorem ofBuf_toBuf {T : BufTy} {Val : EltTy → Type} (x : StableHlo.TRef sig T) (v : T.Contents Val) :
    x.ofBuf (x.toBuf v) = v := by
  rcases x with ⟨ref, rfl, hd, hu⟩
  rfl

/-- Writing an edge array to the buffer of the embedding take is the identity. -/
theorem tb_v4 (X : FVec Ideal S1600000x128 .f32) :
    ((TRef.of main_v4 : TRef sig ⟨S1600000x128, .f32⟩).toBuf (Val := Elt Ideal) X : FVec Ideal S1600000x128 .f32) = X := rfl
/-- … to the buffer of the first take of node rows. -/
theorem tb_v7 (X : FVec Ideal S1600000x128 .f32) :
    ((TRef.of main_v7 : TRef sig ⟨S1600000x128, .f32⟩).toBuf (Val := Elt Ideal) X : FVec Ideal S1600000x128 .f32) = X := rfl
/-- … to the buffer of the first rectified messages. -/
theorem tb_v9 (X : FVec Ideal S1600000x128 .f32) :
    ((TRef.of main_v9 : TRef sig ⟨S1600000x128, .f32⟩).toBuf (Val := Elt Ideal) X : FVec Ideal S1600000x128 .f32) = X := rfl
/-- … to the buffer of the second take of node rows. -/
theorem tb_v16 (X : FVec Ideal S1600000x128 .f32) :
    ((TRef.of main_v16 : TRef sig ⟨S1600000x128, .f32⟩).toBuf (Val := Elt Ideal) X : FVec Ideal S1600000x128 .f32) = X := rfl
/-- … to the buffer of the second rectified messages. -/
theorem tb_v18 (X : FVec Ideal S1600000x128 .f32) :
    ((TRef.of main_v18 : TRef sig ⟨S1600000x128, .f32⟩).toBuf (Val := Elt Ideal) X : FVec Ideal S1600000x128 .f32) = X := rfl

/-- Reading the edge attributes out of their buffer is the identity. -/
theorem ob_arg2 (Y : IVec S1600000 32) :
    (TRef.of main_arg2 : TRef sig ⟨S1600000, .i32⟩).ofBuf (Val := Elt Ideal) Y = Y := rfl
/-- … the source indices. -/
theorem ob_v1 (Y : IVec S1600000 32) :
    (TRef.of main_v1 : TRef sig ⟨S1600000, .i32⟩).ofBuf (Val := Elt Ideal) Y = Y := rfl
/-- … the embedding table. -/
theorem ob_arg3 (Y : FVec Ideal S100x128 .f32) :
    (TRef.of main_arg3 : TRef sig ⟨S100x128, .f32⟩).ofBuf (Val := Elt Ideal) Y = Y := rfl
/-- … the node features after the first call. -/
theorem ob_v6 (Y : FVec Ideal S100000x128 .f32) :
    (TRef.of main_v6 : TRef sig ⟨S100000x128, .f32⟩).ofBuf (Val := Elt Ideal) Y = Y := rfl
/-- … the node features after the second call. -/
theorem ob_v15 (Y : FVec Ideal S100000x128 .f32) :
    (TRef.of main_v15 : TRef sig ⟨S100000x128, .f32⟩).ofBuf (Val := Elt Ideal) Y = Y := rfl
/-- … the first messages before the rectifier. -/
theorem ob_v8 (Y : FVec Ideal S1600000x128 .f32) :
    (TRef.of main_v8 : TRef sig ⟨S1600000x128, .f32⟩).ofBuf (Val := Elt Ideal) Y = Y := rfl
/-- … the second messages before the rectifier. -/
theorem ob_v17 (Y : FVec Ideal S1600000x128 .f32) :
    (TRef.of main_v17 : TRef sig ⟨S1600000x128, .f32⟩).ofBuf (Val := Elt Ideal) Y = Y := rfl

variable (m : (ℓ : Loc nD τ sig) → Buf (Elt Ideal) ℓ) (ρ : Dev nD → PrngReg) (c : Dev nD)

/-! ## The kernel's values, from the launch memory -/

/-- A bias vector laid out as one row, read at column q. -/
def rowAt (b : FVec Ideal S128 .f32) : Fin 128 → EReal :=
  fun q => (shapeCast S1x128 b shapeCasts_S128_S1x128 : Mat 1 128) (ix2 (0 : Fin 1) q)

def kSrc : IVec S1600000 32 := Ker.srcOf (m ((c : Thread nD τ).loc main_arg1))
def kDst : IVec S1600000 32 := Ker.dstOf (m ((c : Thread nD τ).loc main_arg1))
def kEmb : FVec Ideal S1600000x128 .f32 :=
  Ker.takeT (F := Ideal) (m ((c : Thread nD τ).loc main_arg3)) (m ((c : Thread nD τ).loc main_arg2))
def kH0 : Mat 100000 128 :=
  linArr (m ((c : Thread nD τ).loc main_arg0)) (m ((c : Thread nD τ).loc main_arg4)) (rowAt (m ((c : Thread nD τ).loc main_arg5)))
def kAgg (h : Mat 100000 128) : Mat 100000 128 :=
  Ker.agg (F := Ideal) (Ker.takeN (F := Ideal) h (kSrc m c)) (kEmb m c) (kDst m c)
def kH1 : Mat 100000 128 :=
  updArr (kAgg m c (kH0 m c)) (kH0 m c) (m ((c : Thread nD τ).loc main_arg6)) (rowAt (m ((c : Thread nD τ).loc main_arg7)))
    (m ((c : Thread nD τ).loc main_arg8)) (rowAt (m ((c : Thread nD τ).loc main_arg9)))
def kOut : Mat 100000 1 :=
  outArr (kAgg m c (kH1 m c)) (kH1 m c) (m ((c : Thread nD τ).loc main_arg10)) (rowAt (m ((c : Thread nD τ).loc main_arg11)))
    (m ((c : Thread nD τ).loc main_arg12)) (rowAt (m ((c : Thread nD τ).loc main_arg13))) (m ((c : Thread nD τ).loc main_arg14))
    ((shapeCast S1x1 (m ((c : Thread nD τ).loc main_arg15)) shapeCasts_S1_S1x1 : Mat 1 1) (ix2 (0 : Fin 1) (0 : Fin 1)))

/-! ## Before the first call -/

local macro "walk3" : tactic =>
  `(tactic| (show StableHlo.after hostOps0_2 (StableHlo.after hostOps0_1 (StableHlo.after hostOps0 (W0 _ _ _))) _ = _
             after_results_simp
             first | done | rfl))

/-- No stretch before the first call writes an argument: at the call's entry each still holds its launch contents. -/
theorem a3 (b : Ref sig .tc)
    (hb : b ∈ ([main_arg0, main_arg4, main_arg6, main_arg7, main_arg8, main_arg9, main_arg10, main_arg11, main_arg12,
      main_arg13, main_arg14, main_arg15] : List (Ref sig .tc))) :
    W3 m ρ c (Proc.devRef .tc b) = m ((c : Thread nD τ).loc b) := by
  simp only [List.mem_cons, List.not_mem_nil, or_false] at hb
  rcases hb with rfl | rfl | rfl | rfl | rfl | rfl | rfl | rfl | rfl | rfl | rfl | rfl <;> walk3

theorem src3 : W3 m ρ c (Proc.devRef .tc main_v1) = kSrc m c := by
  walk3

theorem dst3 : W3 m ρ c (Proc.devRef .tc main_v3) = kDst m c := by
  walk3

set_option maxHeartbeats 1000000 in
theorem emb3 : W3 m ρ c (Proc.devRef .tc main_v4) = kEmb m c := by
  show StableHlo.after hostOps0_2 (StableHlo.after hostOps0_1 (StableHlo.after hostOps0 (W0 m ρ c))) (Proc.devRef .tc main_v4) = _
  after_results_simp
  simp only [ofBuf_toBuf]
  rw [ob_arg2, ob_arg3, tb_v4]
  rfl

theorem row3 : W3 m ρ c (Proc.devRef .tc main_v5)
    = shapeCast S1x128 (m ((c : Thread nD τ).loc main_arg5)) shapeCasts_S128_S1x128 := by
  walk3

/-! ## The first call -/

theorem h0_4 : W4 m ρ c (Proc.devRef .tc main_v6) = kH0 m c := by
  refine (W4_arr m ρ c 3).trans ?_
  refine (Final.final0 (V3 m ρ) c).trans ?_
  show linArr (W3 m ρ c (Proc.devRef .tc main_arg0)) (W3 m ρ c (Proc.devRef .tc main_arg4))
      (fun q => (W3 m ρ c (Proc.devRef .tc main_v5) : Mat 1 128) (ix2 (0 : Fin 1) q)) = _
  rw [a3 m ρ c main_arg0 (by simp), a3 m ρ c main_arg4 (by simp), row3]
  rfl

/-! ## Between the first and the second call -/

local macro "walk8" : tactic =>
  `(tactic| (show StableHlo.after hostOps1_3 (StableHlo.after hostOps1_2 (StableHlo.after hostOps1_1 (StableHlo.after hostOps1 (W4 _ _ _)))) _ = _
             after_results_simp
             first | done | rfl))

/-- The buffers the stretch between the first two calls does not write are, at the second call's entry, as the
    first call left them. -/
theorem k8 (b : Ref sig .tc)
    (hb : b ∈ ([main_v6, main_arg6, main_arg8, main_v1, main_v3, main_v4, main_arg10, main_arg11, main_arg12, main_arg13,
      main_arg14, main_arg15] : List (Ref sig .tc))) :
    W8 m ρ c (Proc.devRef .tc b) = W4 m ρ c (Proc.devRef .tc b) := by
  simp only [List.mem_cons, List.not_mem_nil, or_false] at hb
  rcases hb with rfl | rfl | rfl | rfl | rfl | rfl | rfl | rfl | rfl | rfl | rfl | rfl <;> walk8

set_option maxHeartbeats 1000000 in
theorem agg0_8 : W8 m ρ c (Proc.devRef .tc main_v12)
    = Ker.agg (F := Ideal) (Ker.takeN (F := Ideal) (W4 m ρ c (Proc.devRef .tc main_v6)) (W4 m ρ c (Proc.devRef .tc main_v1)))
        (W4 m ρ c (Proc.devRef .tc main_v4)) (W4 m ρ c (Proc.devRef .tc main_v3)) := by
  show StableHlo.after hostOps1_3 (StableHlo.after hostOps1_2 (StableHlo.after hostOps1_1 (StableHlo.after hostOps1 (W4 m ρ c)))) (Proc.devRef .tc main_v12) = _
  after_results_simp
  simp only [ofBuf_toBuf]
  rw [tb_v9, ob_v8, tb_v7, ob_v6, ob_v1]
  rfl

theorem row8a : W8 m ρ c (Proc.devRef .tc main_v13)
    = shapeCast S1x128 (W4 m ρ c (Proc.devRef .tc main_arg7)) shapeCasts_S128_S1x128 := by
  walk8

theorem row8b : W8 m ρ c (Proc.devRef .tc main_v14)
    = shapeCast S1x128 (W4 m ρ c (Proc.devRef .tc main_arg9)) shapeCasts_S128_S1x128 := by
  walk8

/-- A buffer that is none of the first call's arrays and that no earlier stretch wrote after the launch: after the
    call it still holds its launch contents. -/
theorem a4 (b : Ref sig .tc)
    (hb : b ∈ ([main_arg6, main_arg7, main_arg8, main_arg9, main_arg10, main_arg11, main_arg12, main_arg13, main_arg14,
      main_arg15] : List (Ref sig .tc))) :
    W4 m ρ c (Proc.devRef .tc b) = m ((c : Thread nD τ).loc b) := by
  refine (W4_of_ne m ρ c b ?_).trans (a3 m ρ c b ?_)
  · simp only [List.mem_cons, List.not_mem_nil, or_false] at hb
    rcases hb with rfl | rfl | rfl | rfl | rfl | rfl | rfl | rfl | rfl | rfl <;> decide
  · simp only [List.mem_cons, List.not_mem_nil, or_false] at hb ⊢
    rcases hb with rfl | rfl | rfl | rfl | rfl | rfl | rfl | rfl | rfl | rfl <;> simp

theorem src4 : W4 m ρ c (Proc.devRef .tc main_v1) = kSrc m c := (W4_of_ne m ρ c main_v1 (by decide)).trans (src3 m ρ c)
theorem dst4 : W4 m ρ c (Proc.devRef .tc main_v3) = kDst m c := (W4_of_ne m ρ c main_v3 (by decide)).trans (dst3 m ρ c)
theorem emb4 : W4 m ρ c (Proc.devRef .tc main_v4) = kEmb m c := (W4_of_ne m ρ c main_v4 (by decide)).trans (emb3 m ρ c)

/-! ## The second call -/

theorem h1_9 : W9 m ρ c (Proc.devRef .tc main_v15) = kH1 m c := by
  refine (W9_arr m ρ c 6).trans ?_
  refine (Final.final1 (V8 m ρ) c).trans ?_
  show updArr (W8 m ρ c (Proc.devRef .tc main_v12)) (W8 m ρ c (Proc.devRef .tc main_v6)) (W8 m ρ c (Proc.devRef .tc main_arg6))
      (fun q => (W8 m ρ c (Proc.devRef .tc main_v13) : Mat 1 128) (ix2 (0 : Fin 1) q)) (W8 m ρ c (Proc.devRef .tc main_arg8))
      (fun q => (W8 m ρ c (Proc.devRef .tc main_v14) : Mat 1 128) (ix2 (0 : Fin 1) q)) = _
  rw [agg0_8, k8 m ρ c main_v6 (by simp), k8 m ρ c main_arg6 (by simp), k8 m ρ c main_arg8 (by simp), row8a, row8b, h0_4,
    src4, emb4, dst4, a4 m ρ c main_arg6 (by simp), a4 m ρ c main_arg7 (by simp), a4 m ρ c main_arg8 (by simp),
    a4 m ρ c main_arg9 (by simp)]
  rfl

/-! ## Between the second and the third call -/

local macro "walk13" : tactic =>
  `(tactic| (show StableHlo.after hostOps2_3 (StableHlo.after hostOps2_2 (StableHlo.after hostOps2_1 (StableHlo.after hostOps2 (W9 _ _ _)))) _ = _
             after_results_simp
             first | done | rfl))

/-- The buffers the stretch between the last two calls does not write are, at the third call's entry, as the second
    call left them. -/
theorem k13 (b : Ref sig .tc)
    (hb : b ∈ ([main_v15, main_arg10, main_arg12, main_arg14] : List (Ref sig .tc))) :
    W13 m ρ c (Proc.devRef .tc b) = W9 m ρ c (Proc.devRef .tc b) := by
  simp only [List.mem_cons, List.not_mem_nil, or_false] at hb
  rcases hb with rfl | rfl | rfl | rfl <;> walk13

set_option maxHeartbeats 1000000 in
theorem agg1_13 : W13 m ρ c (Proc.devRef .tc main_v21)
    = Ker.agg (F := Ideal) (Ker.takeN (F := Ideal) (W9 m ρ c (Proc.devRef .tc main_v15)) (W9 m ρ c (Proc.devRef .tc main_v1)))
        (W9 m ρ c (Proc.devRef .tc main_v4)) (W9 m ρ c (Proc.devRef .tc main_v3)) := by
  show StableHlo.after hostOps2_3 (StableHlo.after hostOps2_2 (StableHlo.after hostOps2_1 (StableHlo.after hostOps2 (W9 m ρ c)))) (Proc.devRef .tc main_v21) = _
  after_results_simp
  simp only [ofBuf_toBuf]
  rw [tb_v18, ob_v17, tb_v16, ob_v15, ob_v1]
  rfl

theorem row13a : W13 m ρ c (Proc.devRef .tc main_v22)
    = shapeCast S1x128 (W9 m ρ c (Proc.devRef .tc main_arg11)) shapeCasts_S128_S1x128 := by
  walk13

theorem row13b : W13 m ρ c (Proc.devRef .tc main_v23)
    = shapeCast S1x128 (W9 m ρ c (Proc.devRef .tc main_arg13)) shapeCasts_S128_S1x128 := by
  walk13

theorem one13 : W13 m ρ c (Proc.devRef .tc main_v24)
    = shapeCast S1x1 (W9 m ρ c (Proc.devRef .tc main_arg15)) shapeCasts_S1_S1x1 := by
  walk13

/-- A buffer that is none of the second call's arrays, that the stretch before that call did not write, and that
    held its launch contents after the first call: after the second call it still does. -/
theorem a9 (b : Ref sig .tc)
    (hb : b ∈ ([main_arg10, main_arg11, main_arg12, main_arg13, main_arg14, main_arg15] : List (Ref sig .tc))) :
    W9 m ρ c (Proc.devRef .tc b) = m ((c : Thread nD τ).loc b) := by
  refine ((W9_of_ne m ρ c b ?_).trans (k8 m ρ c b ?_)).trans (a4 m ρ c b ?_)
  · simp only [List.mem_cons, List.not_mem_nil, or_false] at hb
    rcases hb with rfl | rfl | rfl | rfl | rfl | rfl <;> decide
  · simp only [List.mem_cons, List.not_mem_nil, or_false] at hb ⊢
    rcases hb with rfl | rfl | rfl | rfl | rfl | rfl <;> simp
  · simp only [List.mem_cons, List.not_mem_nil, or_false] at hb ⊢
    rcases hb with rfl | rfl | rfl | rfl | rfl | rfl <;> simp

theorem src9 : W9 m ρ c (Proc.devRef .tc main_v1) = kSrc m c :=
  ((W9_of_ne m ρ c main_v1 (by decide)).trans (k8 m ρ c main_v1 (by simp))).trans (src4 m ρ c)
theorem dst9 : W9 m ρ c (Proc.devRef .tc main_v3) = kDst m c :=
  ((W9_of_ne m ρ c main_v3 (by decide)).trans (k8 m ρ c main_v3 (by simp))).trans (dst4 m ρ c)
theorem emb9 : W9 m ρ c (Proc.devRef .tc main_v4) = kEmb m c :=
  ((W9_of_ne m ρ c main_v4 (by decide)).trans (k8 m ρ c main_v4 (by simp))).trans (emb4 m ρ c)

/-! ## The third call: the result -/

theorem out14 : W14 m ρ c (Proc.devRef .tc main_v25) = kOut m c := by
  refine (W14_arr m ρ c 8).trans ?_
  refine (Final.final2 (V13 m ρ) c).trans ?_
  show outArr (W13 m ρ c (Proc.devRef .tc main_v21)) (W13 m ρ c (Proc.devRef .tc main_v15)) (W13 m ρ c (Proc.devRef .tc main_arg10))
      (fun q => (W13 m ρ c (Proc.devRef .tc main_v22) : Mat 1 128) (ix2 (0 : Fin 1) q)) (W13 m ρ c (Proc.devRef .tc main_arg12))
      (fun q => (W13 m ρ c (Proc.devRef .tc main_v23) : Mat 1 128) (ix2 (0 : Fin 1) q)) (W13 m ρ c (Proc.devRef .tc main_arg14))
      ((W13 m ρ c (Proc.devRef .tc main_v24) : Mat 1 1) (ix2 (0 : Fin 1) (0 : Fin 1))) = _
  rw [agg1_13, k13 m ρ c main_v15 (by simp), k13 m ρ c main_arg10 (by simp), k13 m ρ c main_arg12 (by simp),
    k13 m ρ c main_arg14 (by simp), row13a, row13b, one13, h1_9, src9, emb9, dst9, a9 m ρ c main_arg10 (by simp),
    a9 m ρ c main_arg11 (by simp), a9 m ρ c main_arg12 (by simp), a9 m ρ c main_arg13 (by simp),
    a9 m ρ c main_arg14 (by simp), a9 m ρ c main_arg15 (by simp)]
  rfl

end Cert.KernelIdeal.Glue

end
-- ==== Proof.RefStages.lean ====
/-
  The reference's dense stages are the stages of Proof/Dense.lean, entry by entry.

  At the extended reals the host's `dot_general` with one contracted axis is the sum over that axis of the products,
  a broadcast reads its operand at the coordinates it keeps, and the rectifier is `max x 0` (the zero pattern denotes 0).
-/
import proofs.«414363_j9328668967068_2_alg».proof.Proof.Gen.ReferenceIdeal.Read
import proofs.«414363_j9328668967068_2_alg».proof.Proof.Forms
import proofs.«414363_j9328668967068_2_alg».proof.Proof.Dense
import Idealize.ShloMosaic.Lib.ValueIdx
import Idealize.ShloMosaic.Lib.Pipeline.Value
import Idealize.ShloMosaic.PureOps.Ideal.Laws

noncomputable section

namespace Cert.RefStages

open Idealize.ShloMosaic Idealize.ShloMosaic.ValueIdx Cert.ReferenceIdeal Cert.Forms Cert.Dense

section Reads
open Cert.ReferenceIdeal.Gen

/-! ## Reading the pieces at an entry -/

/-- The product of a 100000 x 128 array with a 128 x 128 one, entry (p, q): the sum over k of x[p, k] W[k, q]. -/
theorem dotSq_ix2 (x : FVec Ideal S100000x128 .f32) (W : FVec Ideal S128x128 .f32) (p : Fin 100000) (q : Fin 128) :
    Host.dotGeneral dot_S100000x128_S128x128_S100000x128_1_0_0_1_n_n none x W (ix2 p q)
      = ∑ k : Fin 128, x (ix2 p k) * W (ix2 k q) := by
  refine (Read.val_main_v11_apply x W (ix2 p q)).trans ?_
  refine Finset.sum_congr rfl fun k _ => ?_
  have el : Read.lidx_main_v11 (ix2 p q) k = ix2 p k := by
    funext a; match a with | ⟨0, _⟩ => rfl | ⟨1, _⟩ => rfl
  have er : Read.ridx_main_v11 (ix2 p q) k = ix2 k q := by
    funext a; match a with | ⟨0, _⟩ => rfl | ⟨1, _⟩ => rfl
  rw [el, er]

/-- The product of a 100000 x 128 array with a 128 x 1 column, entry (p, z): the sum over k of y[p, k] Wo[k, z].
    The one contracted axis is re-indexed by 0 .. 127; the operands' coordinates are then read off axis by axis. -/
theorem dotCol_ix2 (y : FVec Ideal S100000x128 .f32) (Wo : FVec Ideal S128x1 .f32) (p : Fin 100000) (z : Fin 1) :
    Host.dotGeneral dot_S100000x128_S128x1_S100000x1_1_0_0_1_n_n none y Wo (ix2 p z)
      = ∑ k : Fin 128, y (ix2 p k) * Wo (ix2 k z) := by
  simp only [Host.dotGeneral]
  rw [Ideal.dotGeneral_apply,
    ← Equiv.sum_comp (contrEquiv1 dot_S100000x128_S128x1_S100000x1_1_0_0_1_n_n 128 rfl rfl).symm]
  refine Finset.sum_congr rfl fun k _ => ?_
  have hk := contrEquiv1_symm_val dot_S100000x128_S128x1_S100000x1_1_0_0_1_n_n 128 rfl rfl k
  have el : dot_S100000x128_S128x1_S100000x1_1_0_0_1_n_n.lhsIdx (ix2 p z)
      ((contrEquiv1 dot_S100000x128_S128x1_S100000x1_1_0_0_1_n_n 128 rfl rfl).symm k) = ix2 p k :=
    funext fun a => Fin.ext (by
      match a with
      | ⟨0, _⟩ => exact Read.lhs_main_v63_0 _ _
      | ⟨1, _⟩ => exact (Read.lhs_main_v63_1 _ _).trans hk)
  have er : dot_S100000x128_S128x1_S100000x1_1_0_0_1_n_n.rhsIdx (ix2 p z)
      ((contrEquiv1 dot_S100000x128_S128x1_S100000x1_1_0_0_1_n_n 128 rfl rfl).symm k) = ix2 k z :=
    funext fun a => Fin.ext (by
      match a with
      | ⟨0, _⟩ => exact (Read.rhs_main_v63_0 _ _).trans hk
      | ⟨1, _⟩ => exact Read.rhs_main_v63_1 _ _)
  rw [el, er]

/-- A 128-vector broadcast along 100000 rows reads its column's entry. -/
theorem biasRow_ix2 (b : FVec Ideal S128 .f32) (p : Fin 100000) (q : Fin 128) :
    broadcastInDim S100000x128 ![0, 1] bcast_S1x128_S100000x128_0_1 (broadcastInDim S1x128 ![1] bcast_S128_S1x128_1 b) (ix2 p q)
      = b (ix1 q) := by
  refine (Read.val_main_v13_apply (F := Ideal) b (ix2 p q)).trans ?_
  refine (Read.val_main_v12_apply (F := Ideal) b _).trans ?_
  refine congrArg b ?_
  funext a; match a with | ⟨0, _⟩ => rfl

/-- A one-element vector broadcast along 100000 rows of one column reads its one entry. -/
theorem biasOne_ix2 (bo : FVec Ideal S1 .f32) (p : Fin 100000) (z : Fin 1) :
    broadcastInDim S100000x1 ![0, 1] bcast_S1x1_S100000x1_0_1 (broadcastInDim S1x1 ![1] bcast_S1_S1x1_1 bo) (ix2 p z)
      = bo (ix1 (0 : Fin 1)) := by
  refine (Read.val_main_v65_apply (F := Ideal) bo (ix2 p z)).trans ?_
  refine (Read.val_main_v64_apply (F := Ideal) bo _).trans ?_
  refine congrArg bo ?_
  funext a; match a with | ⟨0, _⟩ => rfl

/-- The rectifier at an entry: the zero pattern denotes 0, so it is max x 0. -/
theorem reluN_apply (x : FVec Ideal S100000x128 .f32) (i : S100000x128.Idx) :
    Ref.reluN (F := Ideal) x i = max (x i) 0 := by
  unfold Ref.reluN
  rw [maximumf_apply]
  refine congrArg (max (x i)) ?_
  refine (Read.val_main_v24_apply (F := Ideal) i).trans ?_
  exact Ideal.ofBits_zero_f32

/-- The dense layer at an entry. -/
theorem lin_ix2 (x : FVec Ideal S100000x128 .f32) (W : FVec Ideal S128x128 .f32) (b : FVec Ideal S128 .f32)
    (p : Fin 100000) (q : Fin 128) :
    Ref.lin (F := Ideal) x W b (ix2 p q) = (∑ k : Fin 128, x (ix2 p k) * W (ix2 k q)) + b (ix1 q) := by
  unfold Ref.lin
  rw [addf_apply, dotSq_ix2, biasRow_ix2]

/-- The projection at an entry. -/
theorem proj_ix2 (y : FVec Ideal S100000x128 .f32) (Wo : FVec Ideal S128x1 .f32) (bo : FVec Ideal S1 .f32)
    (p : Fin 100000) (z : Fin 1) :
    Ref.proj (F := Ideal) y Wo bo (ix2 p z) = (∑ k : Fin 128, y (ix2 p k) * Wo (ix2 k z)) + bo (ix1 (0 : Fin 1)) := by
  unfold Ref.proj
  rw [addf_apply, dotCol_ix2, biasOne_ix2]

end Reads

/-! ## The three stages -/

theorem lin_eq (x : FVec Ideal S100000x128 .f32) (W : FVec Ideal S128x128 .f32) (b : FVec Ideal S128 .f32) :
    Ref.lin (F := Ideal) x W b = linArr x W (fun q => b (ix1 q)) := by
  funext i
  obtain ⟨p, q, rfl⟩ : ∃ (p : Fin 100000) (q : Fin 128), i = ix2 p q := ⟨i 0, i 1, eq_ix2 i⟩
  rw [lin_ix2, linArr_ix2]
  rfl

theorem upd_eq (agg h : FVec Ideal S100000x128 .f32) (W1 : FVec Ideal S128x128 .f32) (b1 : FVec Ideal S128 .f32)
    (W2 : FVec Ideal S128x128 .f32) (b2 : FVec Ideal S128 .f32) :
    Ref.upd (F := Ideal) agg h W1 b1 W2 b2 = updArr agg h W1 (fun q => b1 (ix1 q)) W2 (fun q => b2 (ix1 q)) := by
  funext i
  obtain ⟨p, q, rfl⟩ : ∃ (p : Fin 100000) (q : Fin 128), i = ix2 p q := ⟨i 0, i 1, eq_ix2 i⟩
  -- the hidden activation, entry by entry: the inner layer reads agg + h, and its rectifier is max _ 0
  have hid : ∀ j : Fin 128, Ref.reluN (F := Ideal) (Ref.lin (addf agg h) W1 b1) (ix2 p j)
      = hidAt agg h W1 (fun q => b1 (ix1 q)) p j := by
    intro j
    rw [reluN_apply, lin_ix2]
    unfold hidAt
    simp only [addf_apply]
  rw [updArr_ix2]
  unfold Ref.upd updAt
  rw [reluN_apply, addf_apply, lin_ix2]
  simp only [hid]

theorem out_eq (agg h : FVec Ideal S100000x128 .f32) (W1 : FVec Ideal S128x128 .f32) (b1 : FVec Ideal S128 .f32)
    (W2 : FVec Ideal S128x128 .f32) (b2 : FVec Ideal S128 .f32) (Wo : FVec Ideal S128x1 .f32) (bo : FVec Ideal S1 .f32) :
    Ref.proj (F := Ideal) (Ref.upd agg h W1 b1 W2 b2) Wo bo
      = outArr agg h W1 (fun q => b1 (ix1 q)) W2 (fun q => b2 (ix1 q)) Wo (bo (ix1 (0 : Fin 1))) := by
  funext i
  obtain ⟨p, z, rfl⟩ : ∃ (p : Fin 100000) (z : Fin 1), i = ix2 p z := ⟨i 0, i 1, eq_ix2 i⟩
  obtain rfl : z = 0 := Subsingleton.elim _ _
  rw [outArr_ix2, proj_ix2, upd_eq]
  unfold outAt
  simp only [updArr_ix2]

end Cert.RefStages

end
-- ==== Proof.Ranges.lean ====
/-
  Index ranges. The precondition says, besides finiteness of the float inputs, that every source index lies in
  0 .. 99999 and every edge attribute in 0 .. 99: the ranges of the arrays they index. For such an index the wrap
  `i < 0 -> i + n` leaves it alone, the in-range mask of the kernel's fill-mode `take` is set, and `take` is the
  plain gather the reference performs.
-/
import proofs.«414363_j9328668967068_2_alg».proof.Pre_finite_inputs
import proofs.«414363_j9328668967068_2_alg».proof.Proof.Gen.Pre_finite_inputs
import proofs.«414363_j9328668967068_2_alg».proof.Proof.Forms
import Idealize.ShloMosaic.Lib.StableHlo.Predicate
import Idealize.ShloMosaic.Lib.ReduceAll
import Idealize.ShloMosaic.Lib.ValueIdx

noncomputable section

namespace Cert.Ranges

open Idealize.ShloMosaic Idealize.ShloMosaic.ValueIdx Cert.Forms

/-! ## Words -/

/-- A 32-bit word that tests signed-at-least 0 has its top bit clear, so it reads the same signed and unsigned; if it
    also tests signed-below a bound `n` under 2^31, its unsigned value is below `n`. -/
theorem toNat_lt_of_sge_slt {x : BitVec 32} (n : Nat) (hn : n < 2 ^ 31)
    (h0 : IntOp.cmpi .sge x 0#32 = 1#1) (h1 : IntOp.cmpi .slt x (BitVec.ofNat 32 n) = 1#1) : x.toNat < n := by
  have hx : x.toNat < 2 ^ 31 := by
    have := (Scalar.nonneg_iff x).1 h0
    omega
  have hb : (BitVec.ofNat 32 n).toNat = n := by rw [BitVec.toNat_ofNat]; omega
  have := (StableHlo.Predicate.slt_iff_toNat hx (by omega)).1 h1
  omega

/-- The scalar shape has one index. -/
instance subsingleton_scalar_idx : Subsingleton (⟨0, ![]⟩ : Shape).Idx := ⟨fun _ _ => funext fun d => d.elim0⟩

/-! ## The two integer conjuncts of the precondition -/

/-- The last stretch of the printed precondition ands two `all`s onto whatever came before (`u`, `v`): every source
    index is signed-at-least 0 and signed-below 100000, and every edge attribute is signed-at-least 0 and signed-below
    100. If the whole is 1, each `all` is 1, so each compared element is 1. -/
theorem part4_ranges [Cert.Pre_finite_inputs.Facts] (a1 : IVec Cert.Pre_finite_inputs.S2x1600000 32)
    (a2 : IVec Cert.Pre_finite_inputs.S1600000 32) (u v : IVec Cert.Pre_finite_inputs.S_ 1)
    (h : Cert.Pre_finite_inputs.fn_part4 (F := Ideal) a1 a2 u v ix0 = 1#1) :
    (∀ k, (Ref.srcOf a1 k).toNat < 100000) ∧ (∀ k, (a2 k).toNat < 100) := by
  unfold Cert.Pre_finite_inputs.fn_part4 Cert.Pre_finite_inputs.fn_part5 at h
  obtain ⟨h12, h3⟩ := IntOp.andi_eq_one.1 h
  obtain ⟨_, h2⟩ := IntOp.andi_eq_one.1 h12
  refine ⟨fun k => ?_, fun k => ?_⟩
  · obtain ⟨e0, e1⟩ := IntOp.andi_eq_one.1 (Host.reduce_andi_all _ _ _ _ _ h2 k)
    exact toNat_lt_of_sge_slt 100000 (by decide) e0 e1
  · obtain ⟨e0, e1⟩ := IntOp.andi_eq_one.1 (Host.reduce_andi_all _ _ _ _ _ h3 k)
    exact toNat_lt_of_sge_slt 100 (by decide) e0 e1

/-- What the two integer conjuncts of the precondition say, element by element (a non-negative signed word below
    `n` is a word whose unsigned value is below `n`). -/
theorem of_pre [Cert.Pre_finite_inputs.Facts]
    (a0 : FVec Ideal Cert.Pre_finite_inputs.S100000x128 .f32) (a1 : IVec Cert.Pre_finite_inputs.S2x1600000 32)
    (a2 : IVec Cert.Pre_finite_inputs.S1600000 32) (a3 : FVec Ideal Cert.Pre_finite_inputs.S100x128 .f32)
    (a4 : FVec Ideal Cert.Pre_finite_inputs.S128x128 .f32) (a5 : FVec Ideal Cert.Pre_finite_inputs.S128 .f32)
    (a6 : FVec Ideal Cert.Pre_finite_inputs.S128x128 .f32) (a7 : FVec Ideal Cert.Pre_finite_inputs.S128 .f32)
    (a8 : FVec Ideal Cert.Pre_finite_inputs.S128x128 .f32) (a9 : FVec Ideal Cert.Pre_finite_inputs.S128 .f32)
    (a10 : FVec Ideal Cert.Pre_finite_inputs.S128x128 .f32) (a11 : FVec Ideal Cert.Pre_finite_inputs.S128 .f32)
    (a12 : FVec Ideal Cert.Pre_finite_inputs.S128x128 .f32) (a13 : FVec Ideal Cert.Pre_finite_inputs.S128 .f32)
    (a14 : FVec Ideal Cert.Pre_finite_inputs.S128x1 .f32) (a15 : FVec Ideal Cert.Pre_finite_inputs.S1 .f32)
    (h : Cert.Pre_finite_inputs.fn (F := Ideal) a0 a1 a2 a3 a4 a5 a6 a7 a8 a9 a10 a11 a12 a13 a14 a15 = fun _ => 1#1) :
    (∀ k, (Ref.srcOf a1 k).toNat < 100000) ∧ (∀ k, (a2 k).toNat < 100) := by
  have h0 := congrFun h ix0
  unfold Cert.Pre_finite_inputs.fn Cert.Pre_finite_inputs.fn_part1 Cert.Pre_finite_inputs.fn_part2
    Cert.Pre_finite_inputs.fn_part3 at h0
  exact part4_ranges a1 a2 _ _ h0

/-! ## The fill-mode take on in-range indices -/

/-- A word below 2^31 is not signed-below 0, so the wrap `i < 0 -> i + n` keeps it: as arrays, the selection is the
    index array itself. (`Z` is the array of zeros the comparison is made against, `N` the array added.) -/
theorem wrapSel_eq {s : Shape} (idx Z N : IVec s 32) (hZ : ∀ k, Z k = 0#32) (hr : ∀ k, (idx k).toNat < 2 ^ 31) :
    select (cmpi .slt idx Z) (addi idx N) idx = idx := by
  funext k
  show Scalar.select (IntOp.cmpi .slt (idx k) (Z k)) (IntOp.addi (idx k) (N k)) (idx k) = idx k
  rw [hZ k]
  refine if_neg fun e => ?_
  exact Nat.not_lt_zero _ ((StableHlo.Predicate.slt_iff_toNat (hr k) (by decide)).1 e)

/-- The kernel's wrapped index column, for indices below 2^31, is the index array laid out as a column. -/
theorem ker_wrap_eq (n : BitVec 32) (idx : IVec Cert.KernelIdeal.S1600000 32) (hr : ∀ k, (idx k).toNat < 2 ^ 31) :
    Ker.wrap n idx = broadcastInDim Cert.KernelIdeal.S1600000x1 ![0] Cert.KernelIdeal.Gen.bcast_S1600000_S1600000x1_0 idx := by
  unfold Ker.wrap
  exact congrArg _ (wrapSel_eq idx _ _ (fun _ => rfl) hr)

/-- A word `x` with `0 ≤ x ≤ l` unsigned, `l` below 2^31, passes both signed tests of the range mask. -/
theorem inRange_word {x l : BitVec 32} (hl : l.toNat < 2 ^ 31) (hx : x.toNat ≤ l.toNat) :
    IntOp.andi (IntOp.cmpi .sge x 0#32) (IntOp.cmpi .sle x l) = 1#1 :=
  IntOp.andi_eq_one.2 ⟨(StableHlo.Predicate.sge_iff_toNat (by omega) (by decide)).2 (Nat.zero_le _),
    (StableHlo.Predicate.sle_iff_toNat (by omega) hl).2 hx⟩

/-- A left fold by `and` that starts at 1 and meets only 1s is 1; so a reduce by `and`, from 1, of an all-ones array is
    1 at every result index, whichever source indices reduce into it. -/
theorem reduce_andi_ones {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  have hf : ∀ L : List s.Idx, L.foldl (fun r i => IntOp.andi r (x i)) 1#1 = 1#1 := by
    intro L
    induction L with
    | nil => rfl
    | cons a L ih => rw [List.foldl_cons, hx a, show IntOp.andi 1#1 1#1 = 1#1 from by decide]; exact ih
  rw [Host.reduce_eq_foldl, hi]
  exact hf _

/-- The range mask is set at every edge when every index lies in `0 .. l`. -/
theorem inRange_ones (n l : BitVec 32) (idx : IVec Cert.KernelIdeal.S1600000 32) (hl : l.toNat < 2 ^ 31)
    (hr : ∀ k, (idx k).toNat ≤ l.toNat) (k : Cert.KernelIdeal.S1600000.Idx) :
    Ker.inRange l (Ker.wrap n idx) k = 1#1 := by
  rw [ker_wrap_eq n idx (fun k => by have := hr k; omega)]
  unfold Ker.inRange
  refine reduce_andi_ones _ _ _ _ (fun i => ?_) rfl k
  exact inRange_word hl (hr _)

/-- On an all-ones mask the fill keeps every gathered row. -/
theorem fill_ones (mask : IVec Cert.KernelIdeal.S1600000 1) (g : FVec Ideal Cert.KernelIdeal.S1600000x128 .f32)
    (hm : ∀ k, mask k = 1#1) : Ker.fill mask g = g := by
  funext j
  show Scalar.select (broadcastInDim _ _ _ mask j) (g j) _ = g j
  rw [show broadcastInDim _ _ Cert.KernelIdeal.Gen.bcast_S1600000_S1600000x128_0 mask j = 1#1 from hm _]
  exact select_one _ _

/-- With every source index in range, the kernel's fill-mode take of node rows is the reference's gather. -/
theorem takeN_eq (x : FVec Ideal Cert.KernelIdeal.S100000x128 .f32) (idx : IVec Cert.KernelIdeal.S1600000 32)
    (hr : ∀ k, (idx k).toNat < 100000) :
    Ker.takeN (F := Ideal) x idx = Ref.gatherN x (Ref.wrap 100000#32 idx) := by
  have hl : (99999#32 : BitVec 32).toNat = 99999 := rfl
  have hm := inRange_ones 100000#32 99999#32 idx (by omega) (fun k => by have := hr k; omega)
  unfold Ker.takeN
  rw [fill_ones _ _ hm]
  rfl

/-- With every edge attribute in range, the kernel's fill-mode take of table rows is the reference's gather. -/
theorem takeT_eq (t : FVec Ideal Cert.KernelIdeal.S100x128 .f32) (idx : IVec Cert.KernelIdeal.S1600000 32)
    (hr : ∀ k, (idx k).toNat < 100) :
    Ker.takeT (F := Ideal) t idx = Ref.gatherT t (Ref.wrap 100#32 idx) := by
  have hl : (99#32 : BitVec 32).toNat = 99 := rfl
  have hm := inRange_ones 100#32 99#32 idx (by omega) (fun k => by have := hr k; omega)
  unfold Ker.takeT
  rw [fill_ones _ _ hm]
  rfl

end Cert.Ranges

end
-- ==== Proof.Bridge.lean ====
/-
  The two programs compute one function.

  Named over the sixteen argument arrays: the reference's result `refOut` (its composed term, stage by stage) and the
  kernel's `kerOut` (what its three calls and the host stretches between them leave). They differ in three ways, none
  of which changes a value:
    * each bias reaches the kernel as a one-row array (a reshape) and the reference as a broadcast: both read b[q];
    * the kernel gathers with a fill-mode take, the reference with a plain gather: equal where every index is in
      range, which is what the precondition's two integer conjuncts say;
    * the dense stages run block by block in the kernel and whole in the reference: one function, since they are
      row-local (the blocks-to-array and the reference-stage statements).
  No algebraic law is used: after these three identifications the two terms are the same term.
-/
import proofs.«414363_j9328668967068_2_alg».proof.Proof.Glue
import proofs.«414363_j9328668967068_2_alg».proof.Proof.RefStages
import proofs.«414363_j9328668967068_2_alg».proof.Proof.Ranges
import Idealize.ShloMosaic.Lib.ValueLayout

set_option maxRecDepth 16384

noncomputable section

namespace Cert.Bridge

open Idealize.ShloMosaic Idealize.ShloMosaic.TcCoe Idealize.ShloMosaic.ValueIdx Idealize.SL.Sem
open Cert.Forms Cert.Dense Cert.KernelIdeal

/-- A vector laid out as one row, read at column q, is the vector at q. -/
theorem rowAt_eq (b : FVec Ideal S128 .f32) : Glue.rowAt b = fun q => b (ix1 q) := by
  funext q
  exact shapeCast_a_1a_apply b _ (0 : Fin 1) q

/-- A one-element vector laid out as a 1 x 1 array holds that element. -/
theorem one_eq (b : FVec Ideal S1 .f32) :
    (shapeCast S1x1 b Gen.shapeCasts_S1_S1x1 : Mat 1 1) (ix2 (0 : Fin 1) (0 : Fin 1)) = b (ix1 (0 : Fin 1)) :=
  shapeCast_a_1a_apply b _ (0 : Fin 1) (0 : Fin 1)

/-- With every source index and every edge attribute in range, the kernel's aggregation (fill-mode takes) is the
    reference's (plain gathers of the wrapped indices). -/
theorem agg_eq (h : FVec Ideal S100000x128 .f32) (ei : IVec S2x1600000 32) (attr : IVec S1600000 32)
    (emb : FVec Ideal S100x128 .f32) (hs : ∀ k, (Ref.srcOf ei k).toNat < 100000) (ha : ∀ k, (attr k).toNat < 100) :
    Ker.agg (F := Ideal) (Ker.takeN (F := Ideal) h (Ker.srcOf ei)) (Ker.takeT (F := Ideal) emb attr) (Ker.dstOf ei)
      = Ref.agg (F := Ideal) (Ref.gatherN h (Ref.wrap 100000#32 (Ref.srcOf ei))) (Ref.gatherT emb (Ref.wrap 100#32 attr))
          (Ref.dstOf ei) := by
  rw [Ranges.takeN_eq h (Ker.srcOf ei) hs, Ranges.takeT_eq emb attr ha]
  rfl

/-- The reference's result, stage by stage, as a function of the argument arrays. -/
def refOut (a0 : FVec Ideal S100000x128 .f32) (a1 : IVec S2x1600000 32) (a2 : IVec S1600000 32) (a3 : FVec Ideal S100x128 .f32) (a4 : FVec Ideal S128x128 .f32) (a5 : FVec Ideal S128 .f32) (a6 : FVec Ideal S128x128 .f32) (a7 : FVec Ideal S128 .f32) (a8 : FVec Ideal S128x128 .f32) (a9 : FVec Ideal S128 .f32) (a10 : FVec Ideal S128x128 .f32) (a11 : FVec Ideal S128 .f32) (a12 : FVec Ideal S128x128 .f32) (a13 : FVec Ideal S128 .f32) (a14 : FVec Ideal S128x1 .f32) (a15 : FVec Ideal S1 .f32) : FVec Ideal S100000x1 .f32 :=
  Ref.proj (F := Ideal)
    (Ref.upd
      (Ref.agg
        (Ref.gatherN
          (Ref.upd
            (Ref.agg (Ref.gatherN (Ref.lin a0 a4 a5) (Ref.wrap 100000#32 (Ref.srcOf a1)))
              (Ref.gatherT a3 (Ref.wrap 100#32 a2)) (Ref.dstOf a1))
            (Ref.lin a0 a4 a5) a6 a7 a8 a9)
          (Ref.wrap 100000#32 (Ref.srcOf a1)))
        (Ref.gatherT a3 (Ref.wrap 100#32 a2)) (Ref.dstOf a1))
      (Ref.upd
        (Ref.agg (Ref.gatherN (Ref.lin a0 a4 a5) (Ref.wrap 100000#32 (Ref.srcOf a1)))
          (Ref.gatherT a3 (Ref.wrap 100#32 a2)) (Ref.dstOf a1))
        (Ref.lin a0 a4 a5) a6 a7 a8 a9)
      a10 a11 a12 a13)
    a14 a15

/-- The reference run's composed term is `refOut` of the launch contents of the arguments. -/
theorem res_eq (m' : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v66 (F := Ideal) m' c
      = refOut (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) := by
  unfold Cert.ReferenceIdeal.Value.res_main_v66 refOut Ref.proj Ref.upd Ref.agg Ref.gatherN Ref.gatherT Ref.lin Ref.reluN Ref.reluE
    Ref.wrap Ref.srcOf Ref.dstOf
  rfl

/-- The arrays' theorem: under the two index ranges the kernel's value is the reference's. -/
theorem arrays_eq (a0 : FVec Ideal S100000x128 .f32) (a1 : IVec S2x1600000 32) (a2 : IVec S1600000 32) (a3 : FVec Ideal S100x128 .f32) (a4 : FVec Ideal S128x128 .f32) (a5 : FVec Ideal S128 .f32) (a6 : FVec Ideal S128x128 .f32) (a7 : FVec Ideal S128 .f32) (a8 : FVec Ideal S128x128 .f32) (a9 : FVec Ideal S128 .f32) (a10 : FVec Ideal S128x128 .f32) (a11 : FVec Ideal S128 .f32) (a12 : FVec Ideal S128x128 .f32) (a13 : FVec Ideal S128 .f32) (a14 : FVec Ideal S128x1 .f32) (a15 : FVec Ideal S1 .f32)
    (hs : ∀ k, (Ref.srcOf a1 k).toNat < 100000) (ha : ∀ k, (a2 k).toNat < 100) :
    refOut a0 a1 a2 a3 a4 a5 a6 a7 a8 a9 a10 a11 a12 a13 a14 a15
      = outArr
          (Ker.agg (F := Ideal)
            (Ker.takeN (F := Ideal)
              (updArr
                (Ker.agg (F := Ideal) (Ker.takeN (F := Ideal) (linArr a0 a4 (Glue.rowAt a5)) (Ker.srcOf a1)) (Ker.takeT (F := Ideal) a3 a2)
                  (Ker.dstOf a1))
                (linArr a0 a4 (Glue.rowAt a5)) a6 (Glue.rowAt a7) a8 (Glue.rowAt a9))
              (Ker.srcOf a1))
            (Ker.takeT (F := Ideal) a3 a2) (Ker.dstOf a1))
          (updArr
            (Ker.agg (F := Ideal) (Ker.takeN (F := Ideal) (linArr a0 a4 (Glue.rowAt a5)) (Ker.srcOf a1)) (Ker.takeT (F := Ideal) a3 a2)
              (Ker.dstOf a1))
            (linArr a0 a4 (Glue.rowAt a5)) a6 (Glue.rowAt a7) a8 (Glue.rowAt a9))
          a10 (Glue.rowAt a11) a12 (Glue.rowAt a13) a14
          ((shapeCast S1x1 a15 Gen.shapeCasts_S1_S1x1 : Mat 1 1) (ix2 (0 : Fin 1) (0 : Fin 1))) := by
  unfold refOut
  rw [RefStages.out_eq, RefStages.upd_eq, RefStages.lin_eq]
  simp only [rowAt_eq, one_eq, agg_eq _ a1 a2 a3 hs ha]

/-- From memories agreeing on the arguments, with the kernel's indices in range: the reference run's term is the
    kernel run's value. -/
theorem value_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hs : ∀ k, (Ref.srcOf (m ((c.tc : Thread Cert.KernelIdeal.nD Cert.KernelIdeal.τ).loc Cert.KernelIdeal.main_arg1)) k).toNat < 100000)
    (ha : ∀ k, ((m ((c.tc : Thread Cert.KernelIdeal.nD Cert.KernelIdeal.τ).loc Cert.KernelIdeal.main_arg2) : IVec S1600000 32) k).toNat < 100)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) :
    Cert.ReferenceIdeal.Value.res_main_v66 (F := Ideal) m' c = Glue.kOut m c := by
  obtain ⟨h0, h1, h2, h3, h4, h5, h6, h7, h8, h9, h10, h11, h12, h13, h14, h15⟩ := hag
  rw [res_eq, h0, h1, h2, h3, h4, h5, h6, h7, h8, h9, h10, h11, h12, h13, h14, h15]
  refine (arrays_eq _ _ _ _ _ _ _ _ _ _ _ _ _ _ _ _ hs ha).trans ?_
  rfl

end Cert.Bridge

end
-- ==== Proof.lean ====
/-
  The certificate of the graph-network kernel against its jnp reference, over the extended reals.

  The statement carries, besides finiteness of the float inputs, the evident domain of the two integer inputs that
  index arrays: every source node index lies in 0 .. 99999 and every edge attribute in 0 .. 99. Outside it the
  reference itself indexes out of range (its gather clamps the start index) while the kernel's fill-mode take
  returns a fill value, so the two programs differ there; inside it they compute one function:

    h0  = x Win + b_in
    agg(h)[d] = sum over edges e with dst[e] = d of max (h[src[e]] + edge_emb[attr[e]]) 0
    upd(h; W1 b1 W2 b2) = max (max ((agg(h) + h) W1 + b1) 0 W2 + b2 + h) 0
    out = upd(upd(h0; layer 0); layer 1) Wout + b_out.

  The kernel forms h0, the first update and the second update fused with the projection in three calls over 20
  blocks of 5000 rows each; the aggregation between them is host code, the same in both programs.

  The three frames: the two kernel programs' are the generated ones; the reference has no call, and its frame is its
  run with the result dropped. The idealization rewrote nothing, so `preserves` is trivial. For the value claim the
  kernel's run is the generated launch with the result buffer named (Proof/RunValue.lean) read back to the launch
  memory (Proof/Glue.lean over Proof/Final.lean and Proof/Pay.lean), the reference's run is the generated one, and
  Proof/Bridge.lean says the two values are one (over Proof/RefStages.lean and Proof/Ranges.lean; the mathematics of
  the dense stages is Proof/Dense.lean).
-/
import proofs.«414363_j9328668967068_2_alg».proof.Defs
import proofs.«414363_j9328668967068_2_alg».proof.Proof.Gen.Kernel
import proofs.«414363_j9328668967068_2_alg».proof.Proof.Gen.Kernel.Frame
import proofs.«414363_j9328668967068_2_alg».proof.Proof.Gen.KernelIdeal
import proofs.«414363_j9328668967068_2_alg».proof.Proof.Gen.KernelIdeal.Frame
import proofs.«414363_j9328668967068_2_alg».proof.Proof.Gen.ReferenceIdeal
import proofs.«414363_j9328668967068_2_alg».proof.Proof.Gen.ReferenceIdeal.Run
import proofs.«414363_j9328668967068_2_alg».proof.Proof.Gen.ReferenceIdeal.Read
import proofs.«414363_j9328668967068_2_alg».proof.Proof.Gen.Pre_finite_inputs
import proofs.«414363_j9328668967068_2_alg».proof.Proof.RunValue
import proofs.«414363_j9328668967068_2_alg».proof.Proof.Glue
import proofs.«414363_j9328668967068_2_alg».proof.Proof.Bridge
import proofs.«414363_j9328668967068_2_alg».proof.Proof.Ranges
import Idealize.ShloMosaic.Adequacy
import Idealize.ShloMosaic.Init

noncomputable section

namespace Cert.Proof

open Idealize.ShloMosaic Idealize.SL.Sem

section Claims

local instance : Cert.Kernel.Facts := Cert.Kernel.Gen.facts
local instance : Cert.KernelIdeal.Facts := Cert.KernelIdeal.Gen.facts
local instance : Cert.ReferenceIdeal.Facts := Cert.ReferenceIdeal.Gen.facts
local instance : Cert.Pre_finite_inputs.Facts := Cert.Pre_finite_inputs.Gen.facts

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs run; the kernel's result buffer ends at the value read back from its segments, the reference's at
    its composed term, and under the precondition's index ranges these are one array. -/
theorem algebraic : Cert.algebraic_KernelIdeal_ReferenceIdeal := by
  intro m ρ m' ρ' hpre hag
  have hr := fun c => Cert.Ranges.of_pre _ _ _ _ _ _ _ _ _ _ _ _ _ _ _ _ (hpre c)
  refine ⟨fun c => Cert.KernelIdeal.Glue.kOut m c, ?_, ?_⟩
  · exact (θ_run Cert.KernelIdeal.defs _ _).mono
      (fun _ h c => ⟨(h c).1.trans (Cert.KernelIdeal.Glue.out14 m ρ c), (h c).2⟩)
      (Cert.KernelIdeal.RunValue.run_value (F := Ideal) m ρ)
  · exact (θ_run Cert.ReferenceIdeal.defs _ _).mono
      (fun _ h c => ⟨(h c).1.trans (Cert.Bridge.value_eq m m' c (hr c).1 (hr c).2 (hag c)), (h c).2⟩)
      (Cert.ReferenceIdeal.Value.run (F := Ideal) m' ρ')

end Claims

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
